-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x4x33 : Shape := ⟨3, ![300000, 4, 33]⟩
abbrev S300000x4 : Shape := ⟨2, ![300000, 4]⟩
abbrev S300000x2 : Shape := ⟨2, ![300000, 2]⟩
abbrev S300000 : Shape := ⟨1, ![300000]⟩
abbrev S_ : Shape := ⟨0, ![]⟩

class Facts : Prop where
  bcast_S_S300000x4x33 : S_.BroadcastsInDim S300000x4x33 (![] : Fin 0 → Fin S300000x4x33.rank)
  reducesTo_S300000x4x33_S_d0_1_2 : S300000x4x33.ReducesTo [0, 1, 2] S_
  h_S_ : 0 < S_.numel
  bcast_S_S300000x4 : S_.BroadcastsInDim S300000x4 (![] : Fin 0 → Fin S300000x4.rank)
  reducesTo_S300000x4_S_d0_1 : S300000x4.ReducesTo [0, 1] S_
  bcast_S_S300000x2 : S_.BroadcastsInDim S300000x2 (![] : Fin 0 → Fin S300000x2.rank)
  reducesTo_S300000x2_S_d0_1 : S300000x2.ReducesTo [0, 1] S_
  bcast_S_S300000 : S_.BroadcastsInDim S300000 (![] : Fin 0 → Fin S300000.rank)
  reducesTo_S300000_S_d0 : S300000.ReducesTo [0] S_

variable [Facts]

def fn_part1 {F : FTy → Type} [FloatOps F] (main_v13 : IVec S_ 1) (main_v16 : IVec S300000 1) : IVec S_ 1 :=
  let main_c_5 : IVec S_ 1 := constantI S_ 1 1#1
  let main_v17 : IVec S_ 1 := (fun x v => Host.reduce IntOp.andi x v reducesTo_S300000_S_d0 h_S_) main_v16 main_c_5
  let main_v18 : IVec S_ 1 := andi main_v13 main_v17
  main_v18

def fn {F : FTy → Type} [FloatOps F] (main_arg0 : FVec F S300000x4x33 .f32) (main_arg1 : FVec F S300000x4 .f32) (main_arg2 : FVec F S300000x2 .f32) (main_arg3 : FVec F S300000 .f32) : IVec S_ 1 :=
  let main_v0 : FVec F S300000x4x33 .f32 := Host.absf main_arg0
  let main_cst : FVec F S_ .f32 := constant S_ .f32 0x7F800000#32
  let main_v1 : FVec F S300000x4x33 .f32 := broadcastInDim S300000x4x33 ![] bcast_S_S300000x4x33 main_cst
  let main_v2 : IVec S300000x4x33 1 := cmpf .olt main_v0 main_v1
  let main_c : IVec S_ 1 := constantI S_ 1 1#1
  let main_v3 : IVec S_ 1 := (fun x v => Host.reduce IntOp.andi x v reducesTo_S300000x4x33_S_d0_1_2 h_S_) main_v2 main_c
  let main_v4 : FVec F S300000x4 .f32 := Host.absf main_arg1
  let main_cst_0 : FVec F S_ .f32 := constant S_ .f32 0x7F800000#32
  let main_v5 : FVec F S300000x4 .f32 := broadcastInDim S300000x4 ![] bcast_S_S300000x4 main_cst_0
  let main_v6 : IVec S300000x4 1 := cmpf .olt main_v4 main_v5
  let main_c_1 : IVec S_ 1 := constantI S_ 1 1#1
  let main_v7 : IVec S_ 1 := (fun x v => Host.reduce IntOp.andi x v reducesTo_S300000x4_S_d0_1 h_S_) main_v6 main_c_1
  let main_v8 : IVec S_ 1 := andi main_v3 main_v7
  let main_v9 : FVec F S300000x2 .f32 := Host.absf main_arg2
  let main_cst_2 : FVec F S_ .f32 := constant S_ .f32 0x7F800000#32
  let main_v10 : FVec F S300000x2 .f32 := broadcastInDim S300000x2 ![] bcast_S_S300000x2 main_cst_2
  let main_v11 : IVec S300000x2 1 := cmpf .olt main_v9 main_v10
  let main_c_3 : IVec S_ 1 := constantI S_ 1 1#1
  let main_v12 : IVec S_ 1 := (fun x v => Host.reduce IntOp.andi x v reducesTo_S300000x2_S_d0_1 h_S_) main_v11 main_c_3
  let main_v13 : IVec S_ 1 := andi main_v8 main_v12
  let main_v14 : FVec F S300000 .f32 := Host.absf main_arg3
  let main_cst_4 : FVec F S_ .f32 := constant S_ .f32 0x7F800000#32
  let main_v15 : FVec F S300000 .f32 := broadcastInDim S300000 ![] bcast_S_S300000 main_cst_4
  let main_v16 : IVec S300000 1 := cmpf .olt main_v14 main_v15
  fn_part1 (F := F) main_v13 main_v16
-- ==== Kernel.lean ====
abbrev S300000x4x33 : Shape := ⟨3, ![300000, 4, 33]⟩
abbrev S300000x4 : Shape := ⟨2, ![300000, 4]⟩
abbrev S300000x2 : Shape := ⟨2, ![300000, 2]⟩
abbrev S300000 : Shape := ⟨1, ![300000]⟩
abbrev S_ : Shape := ⟨0, ![]⟩
abbrev S303104x4x33 : Shape := ⟨3, ![303104, 4, 33]⟩
abbrev S303104x4 : Shape := ⟨2, ![303104, 4]⟩
abbrev S303104x2 : Shape := ⟨2, ![303104, 2]⟩
abbrev S303104 : Shape := ⟨1, ![303104]⟩
abbrev S16x128 : Shape := ⟨2, ![16, 128]⟩
abbrev S4096x4x33 : Shape := ⟨3, ![4096, 4, 33]⟩
abbrev S4096x4 : Shape := ⟨2, ![4096, 4]⟩
abbrev S4096x2 : Shape := ⟨2, ![4096, 2]⟩
abbrev S4096 : Shape := ⟨1, ![4096]⟩
abbrev S8x128 : Shape := ⟨2, ![8, 128]⟩
abbrev S4096x1 : Shape := ⟨2, ![4096, 1]⟩
abbrev S1x33 : Shape := ⟨2, ![1, 33]⟩
abbrev S33 : Shape := ⟨1, ![33]⟩
abbrev S4096x4x1 : Shape := ⟨3, ![4096, 4, 1]⟩
abbrev S1x1x33 : Shape := ⟨3, ![1, 1, 33]⟩
abbrev S1x4096x4 : Shape := ⟨3, ![1, 4096, 4]⟩
abbrev S1 : Shape := ⟨1, ![1]⟩
abbrev S1x1x1 : Shape := ⟨3, ![1, 1, 1]⟩
abbrev S1x1 : Shape := ⟨2, ![1, 1]⟩

abbrev nBuf : Space → Nat
  | .hbm => 24
  | .vmem => 10
  | .smem => 0
  | _ => 0

abbrev bufTy : (tb : Table) → Fin (tcTables nBuf tb) → BufTy
  | .hbm, ⟨0, _⟩ => ⟨S300000x4x33, .f32⟩
  | .hbm, ⟨1, _⟩ => ⟨S300000x4, .f32⟩
  | .hbm, ⟨2, _⟩ => ⟨S300000x2, .f32⟩
  | .hbm, ⟨3, _⟩ => ⟨S300000, .f32⟩
  | .hbm, ⟨4, _⟩ => ⟨S_, .i32⟩
  | .hbm, ⟨5, _⟩ => ⟨S_, .f32⟩
  | .hbm, ⟨6, _⟩ => ⟨S303104x4x33, .f32⟩
  | .hbm, ⟨7, _⟩ => ⟨S_, .i32⟩
  | .hbm, ⟨8, _⟩ => ⟨S_, .f32⟩
  | .hbm, ⟨9, _⟩ => ⟨S303104x4, .f32⟩
  | .hbm, ⟨10, _⟩ => ⟨S_, .i32⟩
  | .hbm, ⟨11, _⟩ => ⟨S_, .f32⟩
  | .hbm, ⟨12, _⟩ => ⟨S303104x2, .f32⟩
  | .hbm, ⟨13, _⟩ => ⟨S_, .i32⟩
  | .hbm, ⟨14, _⟩ => ⟨S_, .f32⟩
  | .hbm, ⟨15, _⟩ => ⟨S303104, .f32⟩
  | .hbm, ⟨16, _⟩ => ⟨S16x128, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S4096x4x33, .f32⟩
  | .local _ .vmem, ⟨1, _⟩ => ⟨S4096x4x33, .f32⟩
  | .local _ .vmem, ⟨2, _⟩ => ⟨S4096x4, .f32⟩
  | .local _ .vmem, ⟨3, _⟩ => ⟨S4096x4, .f32⟩
  | .local _ .vmem, ⟨4, _⟩ => ⟨S4096x2, .f32⟩
  | .local _ .vmem, ⟨5, _⟩ => ⟨S4096x2, .f32⟩
  | .local _ .vmem, ⟨6, _⟩ => ⟨S4096, .f32⟩
  | .local _ .vmem, ⟨7, _⟩ => ⟨S4096, .f32⟩
  | .local _ .vmem, ⟨8, _⟩ => ⟨S8x128, .f32⟩
  | .local _ .vmem, ⟨9, _⟩ => ⟨S8x128, .f32⟩
  | _, _ => ⟨S300000x4x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 37], ![false, false]⟩

def cc0_transform_0 (i : grid0.Coords) : Fin 3 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c37_i32 : BitVec 32 := 37#32
  let v0 : BitVec 32 := Scalar.muli arg0 c37_i32
  let v1 : BitVec 32 := Scalar.addi v0 arg1
  let c0_i32 : BitVec 32 := 0#32
  ![v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x4x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S300000x4x33_S303104x4x33_031040_000_000 : S300000x4x33.Pads (![0, 0, 0] : Fin 3 → Nat) ![3104, 0, 0] ![0, 0, 0] S303104x4x33
  h_S_ : 0 < S_.numel
  pads_S300000x4_S303104x4_031040_000 : S300000x4.Pads (![0, 0] : Fin 2 → Nat) ![3104, 0] ![0, 0] S303104x4
  pads_S300000x2_S303104x2_031040_000 : S300000x2.Pads (![0, 0] : Fin 2 → Nat) ![3104, 0] ![0, 0] S303104x2
  pads_S300000_S303104_031040 : S300000.Pads (![0] : Fin 1 → Nat) ![3104] ![0] S303104
  inb_S8x128_S8x128_0_0 : ∀ a, (![0, 0] : Fin 2 → Nat) a + S8x128.size a ≤ S8x128.size a
  h_S8x128 : 0 < S8x128.numel
  inb_S4096x4x33_S4096x4x33_0_0_0 : ∀ a, (![0, 0, 0] : Fin 3 → Nat) a + S4096x4x33.size a ≤ S4096x4x33.size a
  h_S4096x4x33 : 0 < S4096x4x33.numel
  shapeCasts_S4096x4x33_S4096x4x33 : S4096x4x33.ShapeCasts S4096x4x33
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S4096_S4096_0 : ∀ a, (![0] : Fin 1 → Nat) a + S4096.size a ≤ S4096.size a
  h_S4096 : 0 < S4096.numel
  shapeCasts_S4096_S4096 : S4096.ShapeCasts S4096
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  slices_S4096x4_o0_0_S4096x1 : S4096x4.Slices ![0, 0] S4096x1
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  shapeCasts_S4096_S4096x1 : S4096.ShapeCasts S4096x1
  concatenates_S4096x1_S4096x1_S4096x1_S4096x1_S4096x4_d1 : Shape.Concatenates [S4096x1, S4096x1, S4096x1, S4096x1] S4096x4 1
  iota_S1x33_d1_w32 : S1x33.Iotas .tc 32 [1]
  shapeCasts_S1x33_S33 : S1x33.ShapeCasts S33
  shapeCasts_S4096x4_S4096x4x1 : S4096x4.ShapeCasts S4096x4x1
  shapeCasts_S33_S1x1x33 : S33.ShapeCasts S1x1x33
  broadcasts_S1x1x33_S4096x4x33 : S1x1x33.Broadcasts S4096x4x33
  broadcasts_S4096x4x1_S4096x4x33 : S4096x4x1.Broadcasts S4096x4x33
  shapeCasts_S4096x4x1_S4096x4x1 : S4096x4x1.ShapeCasts S4096x4x1
  broadcasts_S4096x1_S4096x4 : S4096x1.Broadcasts S4096x4
  reduces_S4096x4x33_S4096x4 : S4096x4x33.Reduces [2] S4096x4
  shapeCasts_S4096x4_S1x4096x4 : S4096x4.ShapeCasts S1x4096x4
  reduces_S1x4096x4_S1 : S1x4096x4.Reduces [1, 2] S1
  shapeCasts_S1_S1x1x1 : S1.ShapeCasts S1x1x1
  inpos_S1x1x1_p0_0_0 : ∀ a, (![0, 0, 0] : Fin 3 → Nat) a < S1x1x1.size a
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4x33.size a ≤ S303104x4x33.size a
  hwx0_0 : ∀ i : grid0.Coords, EltTy.bits .f32 = 32 ∨ (Rect.block (s := S303104x4x33) S4096x4x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S303104x4.size a
  hwx0_1 : ∀ i : grid0.Coords, EltTy.bits .f32 = 32 ∨ (Rect.block (s := S303104x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S303104x2.size a
  hwx0_2 : ∀ i : grid0.Coords, EltTy.bits .f32 = 32 ∨ (Rect.block (s := S303104x2) S4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S303104.size a
  hwx0_3 : ∀ i : grid0.Coords, EltTy.bits .f32 = 32 ∨ (Rect.block (s := S303104) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S4096x4x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S300000x4x33 : Shape := ⟨3, ![300000, 4, 33]⟩
abbrev S300000x4 : Shape := ⟨2, ![300000, 4]⟩
abbrev S300000x2 : Shape := ⟨2, ![300000, 2]⟩
abbrev S300000 : Shape := ⟨1, ![300000]⟩
abbrev S300000x1 : Shape := ⟨2, ![300000, 1]⟩
abbrev S_ : Shape := ⟨0, ![]⟩
abbrev S33 : Shape := ⟨1, ![33]⟩
abbrev S300000x4x1 : Shape := ⟨3, ![300000, 4, 1]⟩
abbrev S1x1x33 : Shape := ⟨3, ![1, 1, 33]⟩

abbrev nBuf : Space → Nat
  | .hbm => 134
  | .vmem => 0
  | .smem => 0
  | _ => 0

abbrev hbmTy0_0 (i : Nat) : BufTy := match i % 128 with
  | 0 => ⟨S300000x4x33, .f32⟩
  | 1 => ⟨S300000x4, .f32⟩
  | 2 => ⟨S300000x2, .f32⟩
  | 3 => ⟨S300000, .f32⟩
  | 4 => ⟨S300000x1, .f32⟩
  | 5 => ⟨S300000, .f32⟩
  | 6 => ⟨S300000x1, .f32⟩
  | 7 => ⟨S300000, .f32⟩
  | 8 => ⟨S300000x1, .f32⟩
  | 9 => ⟨S300000, .f32⟩
  | 10 => ⟨S300000x1, .f32⟩
  | 11 => ⟨S300000, .f32⟩
  | 12 => ⟨S300000x1, .f32⟩
  | 13 => ⟨S300000, .f32⟩
  | 14 => ⟨S300000x1, .f32⟩
  | 15 => ⟨S300000, .f32⟩
  | 16 => ⟨S300000, .f32⟩
  | 17 => ⟨S300000, .f32⟩
  | 18 => ⟨S300000, .f32⟩
  | 19 => ⟨S300000, .f32⟩
  | 20 => ⟨S300000x1, .f32⟩
  | 21 => ⟨S300000x1, .f32⟩
  | 22 => ⟨S300000x1, .f32⟩
  | 23 => ⟨S300000x1, .f32⟩
  | 24 => ⟨S300000x4, .f32⟩
  | 25 => ⟨S_, .f32⟩
  | 26 => ⟨S_, .f32⟩
  | 27 => ⟨S_, .f32⟩
  | 28 => ⟨S300000x4, .f32⟩
  | 29 => ⟨S300000x4, .f32⟩
  | 30 => ⟨S_, .f32⟩
  | 31 => ⟨S300000x4, .f32⟩
  | 32 => ⟨S300000x4, .f32⟩
  | 33 => ⟨S300000x4, .f32⟩
  | 34 => ⟨S300000x4, .i32⟩
  | 35 => ⟨S300000x4, .f32⟩
  | 36 => ⟨S300000x4, .f32⟩
  | 37 => ⟨S_, .i32⟩
  | 38 => ⟨S300000x4, .i32⟩
  | 39 => ⟨S300000x4, .i32⟩
  | 40 => ⟨S_, .i32⟩
  | 41 => ⟨S300000x4, .i32⟩
  | 42 => ⟨S300000x4, .i32⟩
  | 43 => ⟨S33, .i32⟩
  | 44 => ⟨S300000x4x1, .i32⟩
  | 45 => ⟨S1x1x33, .i32⟩
  | 46 => ⟨S300000x4x33, .i32⟩
  | 47 => ⟨S300000x4x33, .i32⟩
  | 48 => ⟨S300000x4x33, .i1⟩
  | 49 => ⟨S300000x4x1, .f32⟩
  | 50 => ⟨S300000x4x1, .i32⟩
  | 51 => ⟨S1x1x33, .i32⟩
  | 52 => ⟨S300000x4x33, .i32⟩
  | 53 => ⟨S300000x4x33, .i32⟩
  | 54 => ⟨S300000x4x33, .i1⟩
  | 55 => ⟨S300000x4x1, .f32⟩
  | 56 => ⟨S_, .f32⟩
  | 57 => ⟨S300000x4x1, .f32⟩
  | 58 => ⟨S300000x4x1, .f32⟩
  | 59 => ⟨S_, .f32⟩
  | 60 => ⟨S_, .f32⟩
  | 61 => ⟨S300000x4x33, .f32⟩
  | 62 => ⟨S300000x4x33, .f32⟩
  | 63 => ⟨S300000x4x33, .f32⟩
  | 64 => ⟨S300000x4x33, .f32⟩
  | 65 => ⟨S300000x4x33, .f32⟩
  | 66 => ⟨S_, .f32⟩
  | 67 => ⟨S300000x4, .f32⟩
  | 68 => ⟨S300000x4, .i1⟩
  | 69 => ⟨S_, .f32⟩
  | 70 => ⟨S_, .f32⟩
  | 71 => ⟨S300000x4, .f32⟩
  | 72 => ⟨S300000x4, .f32⟩
  | 73 => ⟨S300000x4, .f32⟩
  | 74 => ⟨S300000x1, .f32⟩
  | 75 => ⟨S300000x4, .f32⟩
  | 76 => ⟨S300000x4, .f32⟩
  | 77 => ⟨S300000x4, .f32⟩
  | 78 => ⟨S_, .f32⟩
  | 79 => ⟨S300000x4, .f32⟩
  | 80 => ⟨S_, .f32⟩
  | 81 => ⟨S300000x4, .f32⟩
  | 82 => ⟨S300000x4, .f32⟩
  | 83 => ⟨S300000x4x1, .f32⟩
  | 84 => ⟨S300000x4x33, .f32⟩
  | 85 => ⟨S300000x4x33, .f32⟩
  | 86 => ⟨S300000x4x33, .f32⟩
  | 87 => ⟨S_, .f32⟩
  | 88 => ⟨S300000x4, .f32⟩
  | 89 => ⟨S300000x4x1, .f32⟩
  | 90 => ⟨S300000x4x1, .f32⟩
  | 91 => ⟨S300000x4x33, .f32⟩
  | 92 => ⟨S300000x4x33, .f32⟩
  | 93 => ⟨S300000x4x33, .f32⟩
  | 94 => ⟨S_, .f32⟩
  | 95 => ⟨S300000x4x33, .f32⟩
  | 96 => ⟨S300000x4x33, .i1⟩
  | 97 => ⟨S300000x4x33, .i1⟩
  | 98 => ⟨S300000x4x33, .i1⟩
  | 99 => ⟨S300000x4x33, .f32⟩
  | 100 => ⟨S300000x4x33, .f32⟩
  | 101 => ⟨S_, .f32⟩
  | 102 => ⟨S300000x4x33, .f32⟩
  | 103 => ⟨S300000x4x33, .f32⟩
  | 104 => ⟨S300000x4x33, .f32⟩
  | 105 => ⟨S300000x4x33, .f32⟩
  | 106 => ⟨S_, .f32⟩
  | 107 => ⟨S300000x4, .f32⟩
  | 108 => ⟨S300000x4x33, .f32⟩
  | 109 => ⟨S_, .f32⟩
  | 110 => ⟨S300000x4, .f32⟩
  | 111 => ⟨S_, .f32⟩
  | 112 => ⟨S_, .f32⟩
  | 113 => ⟨S_, .f32⟩
  | 114 => ⟨S300000x4, .f32⟩
  | 115 => ⟨S300000x4, .f32⟩
  | 116 => ⟨S_, .f32⟩
  | 117 => ⟨S300000x4, .f32⟩
  | 118 => ⟨S300000x4, .f32⟩
  | 119 => ⟨S_, .f32⟩
  | 120 => ⟨S300000x4, .f32⟩
  | 121 => ⟨S300000x4, .f32⟩
  | 122 => ⟨S_, .f32⟩
  | 123 => ⟨S300000x4, .f32⟩
  | 124 => ⟨S300000x4, .f32⟩
  | 125 => ⟨S_, .f32⟩
  | 126 => ⟨S300000x4, .f32⟩
  | 127 => ⟨S300000x4, .f32⟩
  | _ => ⟨S300000x4x33, .f32⟩

abbrev hbmTy0_1 (i : Nat) : BufTy := match i % 128 with
  | 0 => ⟨S300000x4, .f32⟩
  | 1 => ⟨S300000x4, .f32⟩
  | 2 => ⟨S_, .f32⟩
  | 3 => ⟨S_, .f32⟩
  | 4 => ⟨S_, .f32⟩
  | 5 => ⟨S_, .f32⟩
  | _ => ⟨S300000x4x33, .f32⟩

abbrev hbmTy (i : Nat) : BufTy := match i / 128 with
  | 0 => hbmTy0_0 i
  | 1 => hbmTy0_1 i
  | _ => ⟨S300000x4x33, .f32⟩

abbrev bufTy : (tb : Table) → Fin (tcTables nBuf tb) → BufTy
  | .hbm, ⟨i, _⟩ => hbmTy i
  | _, _ => ⟨S300000x4x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v45 : Ref sig .tc := ⟨.hbm, 63, rfl⟩
abbrev main_call2_v0 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call4_cst : Ref sig .tc := ⟨.hbm, 78, rfl⟩
abbrev main_call4_v0 : Ref sig .tc := ⟨.hbm, 79, rfl⟩
abbrev main_call4_cst_0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_cst_1 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_8 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_cst_11 : Ref sig .tc := ⟨.hbm, 111, rfl⟩
abbrev main_cst_12 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v69 : Ref sig .tc := ⟨.hbm, 118, rfl⟩
abbrev main_cst_13 : Ref sig .tc := ⟨.hbm, 119, rfl⟩
abbrev main_v70 : Ref sig .tc := ⟨.hbm, 120, rfl⟩
abbrev main_v71 : Ref sig .tc := ⟨.hbm, 121, rfl⟩
abbrev main_cst_14 : Ref sig .tc := ⟨.hbm, 122, rfl⟩
abbrev main_v72 : Ref sig .tc := ⟨.hbm, 123, rfl⟩
abbrev main_v73 : Ref sig .tc := ⟨.hbm, 124, rfl⟩
abbrev main_cst_15 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_16 : Ref sig .tc := ⟨.hbm, 130, rfl⟩
abbrev main_v78 : Ref sig .tc := ⟨.hbm, 131, rfl⟩
abbrev main_cst_17 : Ref sig .tc := ⟨.hbm, 132, rfl⟩
abbrev main_v79 : Ref sig .tc := ⟨.hbm, 133, rfl⟩

abbrev nD : Nat := 1
abbrev τ : Topo := Topo.v7x

variable {F : FTy → Type} [FloatOps F]

class Facts₀ : Prop where
  slices_S300000x2_S300000x1_0_0 : S300000x2.Slices ![0, 0] S300000x1
  shapeCasts_S300000x1_S300000 : S300000x1.ShapeCasts S300000
  slices_S300000x2_S300000x1_0_1 : S300000x2.Slices ![0, 1] S300000x1
  slices_S300000x4_S300000x1_0_0 : S300000x4.Slices ![0, 0] S300000x1
  slices_S300000x4_S300000x1_0_1 : S300000x4.Slices ![0, 1] S300000x1
  slices_S300000x4_S300000x1_0_2 : S300000x4.Slices ![0, 2] S300000x1
  slices_S300000x4_S300000x1_0_3 : S300000x4.Slices ![0, 3] S300000x1
  bcast_S300000_S300000x1_0 : S300000.BroadcastsInDim S300000x1 (![0] : Fin 1 → Fin S300000x1.rank)
  concatenates_S300000x1_S300000x1_S300000x1_S300000x1_S300000x4_d1 : Shape.Concatenates [S300000x1, S300000x1, S300000x1, S300000x1] S300000x4 1
  bcast_S_S300000x4 : S_.BroadcastsInDim S300000x4 (![] : Fin 0 → Fin S300000x4.rank)
  bcast_S300000x4_S300000x4x1_0_1 : S300000x4.BroadcastsInDim S300000x4x1 (![0, 1] : Fin 2 → Fin S300000x4x1.rank)
  bcast_S33_S1x1x33_2 : S33.BroadcastsInDim S1x1x33 (![2] : Fin 1 → Fin S1x1x33.rank)
  bcast_S1x1x33_S300000x4x33_0_1_2 : S1x1x33.BroadcastsInDim S300000x4x33 (![0, 1, 2] : Fin 3 → Fin S300000x4x33.rank)
  bcast_S300000x4x1_S300000x4x33_0_1_2 : S300000x4x1.BroadcastsInDim S300000x4x33 (![0, 1, 2] : Fin 3 → Fin S300000x4x33.rank)
  bcast_S_S300000x4x1 : S_.BroadcastsInDim S300000x4x1 (![] : Fin 0 → Fin S300000x4x1.rank)
  bcast_S_S300000x4x33 : S_.BroadcastsInDim S300000x4x33 (![] : Fin 0 → Fin S300000x4x33.rank)
  bcast_S300000x1_S300000x4_0_1 : S300000x1.BroadcastsInDim S300000x4 (![0, 1] : Fin 2 → Fin S300000x4.rank)
  reducesTo_S300000x4x33_S300000x4_d2 : S300000x4x33.ReducesTo [2] S300000x4
  h_S_ : 0 < S_.numel
  reducesTo_S300000x4_S_d0_1 : S300000x4.ReducesTo [0, 1] S_

variable [Facts₀]

class Facts : Prop extends Facts₀ where

variable [Facts]
-- ==== Proof.BlockPay.lean ====
/-
  The word one grid point stores at position (0, 0) of the accumulator block, as a function of the point's four
  input blocks (4096 rows of logits, boxes, points and weights) and of the word the accumulator held before.
-/
import proofs.«155284_j65103114273337_1_alg».proof.Proof.Gen.KernelIdeal.Skeleton

noncomputable section

namespace Cert.KernelIdeal.Pay

open Idealize.ShloMosaic Idealize.ShloMosaic.TcCoe Idealize.SL.Sem Cert.KernelIdeal Cert.KernelIdeal.Gen

variable {F : FTy → Type} [FloatOps F]

/-- The word a grid point stores at position (0, 0) of the accumulator block, from the point's input blocks and the
    word acc the accumulator held. -/
def blockPay (x0 : Vec F S4096x4x33 .f32) (x1 : Vec F S4096x4 .f32) (x2 : Vec F S4096x2 .f32) (x3 : Vec F S4096 .f32)
    (acc : Vec F S1x1 .f32) : FVec F S1x1 .f32 :=
  k0_pay1 (k0_pay10 (k0_pay6 x1 x2) (k0_pay7 x1 x2) (k0_pay8 x1 x2) k0_pay9) (k0_pay11 (k0_pay4 x3) (k0_pay5 x1 x2))
    (k0_pay12 (k0_pay3 x0)) (k0_pay13 (k0_pay3 x0)) (k0_pay14 (k0_pay6 x1 x2) (k0_pay7 x1 x2) (k0_pay8 x1 x2) k0_pay9)
    (FloatOps.ofBits .f32 0#32) acc

end Cert.KernelIdeal.Pay

end
-- ==== Proof.Spec.lean ====
/-
  The scalar mathematics of the soft distance-bin focal loss, one (row, side) at a time, on the extended reals.

  A row carries a point (x, y), a box (x1, y1, x2, y2), a weight w and, per side j of the box, 33 logits p.
  Side j's distance is the point's signed distance to that side, clipped to [0, 32]; it is split into its
  integer part and its fraction; the SOFT LABEL over the 33 bins puts the fraction on bin min(floor d + 1, 32),
  one minus the fraction on bin floor d (the upper bin winning when the two coincide) and nothing elsewhere.
  The loss of the side is  1/4 * (1 - p_t)^2 * ce * weight,  with ce the cross entropy of the soft label
  against log-softmax(p) (plus the label's own x log x terms), p_t the label-weighted softmax mass clipped to
  [1e-6, 1], and the weight w, halved where the clipped distance is exactly 32.

  Two spellings of this one function are compared: in the first the entropy term x log x is guarded by x > 0
  (and its logarithm taken of 1 where x is not positive), the square is a product, and sums start from nothing;
  in the second the guard is x ≠ 0, the square is a power with exponent 2, and sums start from the literal zero.
  They agree because a soft label is never negative and 1 - p_t is a real number.
-/
import Idealize.ShloMosaic.PureOps.Ideal
import Idealize.ShloMosaic.PureOps.Ideal.Laws
import Idealize.ShloMosaic.Lib.ValueIdx

noncomputable section

namespace Cert.SoftBin

open Idealize.ShloMosaic

/-- A single-precision pattern as the extended real it denotes. -/
abbrev lit (b : BitVec 32) : EReal := Ideal.ofBits .f32 b

/-- The four signed distances of a point rp = (x, y) to the sides of a box bx = (x1, y1, x2, y2):
    left, right, top, bottom. -/
def dqOf (bx : Fin 4 → EReal) (rp : Fin 2 → EReal) : Fin 4 → EReal
  | ⟨0, _⟩ => rp 0 - bx 0
  | ⟨1, _⟩ => bx 2 - rp 0
  | ⟨2, _⟩ => rp 1 - bx 1
  | ⟨3, _⟩ => bx 3 - rp 1

/-- A distance clipped to [0, 32]. -/
def dist (dq : EReal) : EReal := min (lit 0x42000000#32) (max (lit 0x00000000#32) dq)

/-- The integer part of a clipped distance, as a 32-bit word. -/
def dfl (d : EReal) : BitVec 32 := Ideal.fptosi 32 (Ideal.liftRound Int.floor d)

/-- Its fractional part. -/
def fr (d : EReal) : EReal := d - (((dfl d).toInt : ℝ) : EReal)

/-- The upper bin, min(floor d + 1, 32). -/
def up (d : EReal) : BitVec 32 := IntOp.minsi (IntOp.addi (dfl d) 1#32) 32#32

/-- The soft label of bin k. -/
def soft (d : EReal) (k : Fin 33) : EReal :=
  Scalar.select (IntOp.cmpi .eq (BitVec.ofNat 32 k.val) (up d)) (fr d)
    (Scalar.select (IntOp.cmpi .eq (BitVec.ofNat 32 k.val) (dfl d)) (lit 0x3F800000#32 - fr d) (lit 0x00000000#32))

/-- The side's weight: w, halved at the far end of the range. -/
def wgt (d w : EReal) : EReal :=
  Scalar.select (Ideal.cmp .oeq d (lit 0x42000000#32)) (lit 0x3F000000#32) (lit 0x3F800000#32) * w

/-- The largest logit of the row (never below the pattern of minus infinity). -/
def rmax (p : Fin 33 → EReal) : EReal :=
  max (lit 0xFF800000#32) ((Finset.univ : Finset (Fin 33)).fold max (lit 0xFF800000#32) p)

/-- A logit less the row's largest. -/
def sh (p : Fin 33 → EReal) (k : Fin 33) : EReal := p k - rmax p

/-! ### First spelling -/

def lsmK (p : Fin 33 → EReal) (k : Fin 33) : EReal := sh p k - Ideal.log (∑ k' : Fin 33, Ideal.exp (sh p k'))

def xlK (s : EReal) : EReal :=
  Scalar.select (Ideal.cmp .ogt s (lit 0x00000000#32))
    (s * Ideal.log (Scalar.select (Ideal.cmp .ogt s (lit 0x00000000#32)) s (lit 0x3F800000#32))) (lit 0x00000000#32)

def ceK (p : Fin 33 → EReal) (d : EReal) : EReal := ∑ k : Fin 33, (xlK (soft d k) - soft d k * lsmK p k)

def ptK (p : Fin 33 → EReal) (d : EReal) : EReal :=
  min (lit 0x3F800000#32) (max (lit 0x358637BD#32) (∑ k : Fin 33, Ideal.exp (lsmK p k) * soft d k))

def lossK (p : Fin 33 → EReal) (dq w : EReal) : EReal :=
  lit 0x3E800000#32 * ((lit 0x3F800000#32 - ptK p (dist dq)) * (lit 0x3F800000#32 - ptK p (dist dq))) * ceK p (dist dq) * wgt (dist dq) w

/-! ### Second spelling -/

def lsmR (p : Fin 33 → EReal) (k : Fin 33) : EReal :=
  sh p k - Ideal.log (lit 0x00000000#32 + ∑ k' : Fin 33, Ideal.exp (sh p k'))

def xlR (s : EReal) : EReal :=
  Scalar.select (IntOp.ori (Ideal.cmp .une s (lit 0x00000000#32)) (Ideal.cmp .une s s)) (s * Ideal.log s) (lit 0x00000000#32)

def ceR (p : Fin 33 → EReal) (d : EReal) : EReal :=
  lit 0x00000000#32 + ∑ k : Fin 33, (xlR (soft d k) - soft d k * lsmR p k)

def ptR (p : Fin 33 → EReal) (d : EReal) : EReal :=
  min (lit 0x3F800000#32) (max (lit 0x358637BD#32) (lit 0x00000000#32 + ∑ k : Fin 33, Ideal.exp (lsmR p k) * soft d k))

def lossR (p : Fin 33 → EReal) (dq w : EReal) : EReal :=
  lit 0x3E800000#32 * Ideal.pow (lit 0x3F800000#32 - ptR p (dist dq)) (lit 0x40000000#32) * ceR p (dist dq) * wgt (dist dq) w

/-! ### Rows past the end of the arrays

  The arrays have 300000 rows; the blocked program works on 303104 rows, the extra ones holding zeros. -/

open Idealize.ShloMosaic.ValueIdx

/-- A 300000-row table of logits read at any row number: zero past the end. -/
def padRows3 (X : (⟨3, ![300000, 4, 33]⟩ : Shape).Idx → EReal) (n : ℕ) (j : Fin 4) (k : Fin 33) : EReal :=
  if h : n < 300000 then X (ix3 ⟨n, h⟩ j k) else 0

/-- A 300000-row matrix read at any row number: zero past the end. -/
def padRows2 {C : ℕ} (X : (⟨2, ![300000, C]⟩ : Shape).Idx → EReal) (n : ℕ) (a : Fin C) : EReal :=
  if h : n < 300000 then X (ix2 ⟨n, h⟩ a) else 0

/-- A 300000-entry vector read at any position: zero past the end. -/
def padRows1 (X : (⟨1, ![300000]⟩ : Shape).Idx → EReal) (n : ℕ) : EReal :=
  if h : n < 300000 then X (ix1 ⟨n, h⟩) else 0

/-- The first spelling's loss of side j of row n of the zero-extended arrays. -/
def rowLossK (X0 : (⟨3, ![300000, 4, 33]⟩ : Shape).Idx → EReal) (X1 : (⟨2, ![300000, 4]⟩ : Shape).Idx → EReal)
    (X2 : (⟨2, ![300000, 2]⟩ : Shape).Idx → EReal) (X3 : (⟨1, ![300000]⟩ : Shape).Idx → EReal) (n : ℕ) (j : Fin 4) : EReal :=
  lossK (fun k => padRows3 X0 n j k) (dqOf (fun a => padRows2 X1 n a) (fun a => padRows2 X2 n a) j) (padRows1 X3 n)

/-- The second spelling's loss of side j of row n of the arrays themselves. -/
def rowLossR (X0 : (⟨3, ![300000, 4, 33]⟩ : Shape).Idx → EReal) (X1 : (⟨2, ![300000, 4]⟩ : Shape).Idx → EReal)
    (X2 : (⟨2, ![300000, 2]⟩ : Shape).Idx → EReal) (X3 : (⟨1, ![300000]⟩ : Shape).Idx → EReal) (n : Fin 300000) (j : Fin 4) : EReal :=
  lossR (fun k => X0 (ix3 n j k)) (dqOf (fun a => X1 (ix2 n a)) (fun a => X2 (ix2 n a)) j) (X3 (ix1 n))

end Cert.SoftBin

end
-- ==== Proof.KernelFrame.lean ====
/-
  What the accumulator block holds at position (0, 0) after each grid point, and what the accumulator array holds
  after the region.

  The region runs 2 x 37 grid points; point t = 37 q + i works on block q of the 16 x 128 accumulator array. At
  i = 0 the block is zeroed and the point's block total is added to its word (0, 0); at i > 0 the total is added to
  the word the point before left there. So after point 37 q + i the word is zero plus the block totals of points
  37 q .. 37 q + i, and the array's words (0, 0) and (8, 0), written back after points 36 and 73, hold the two
  halves' totals.
-/
import proofs.«155284_j65103114273337_1_alg».proof.Proof.Gen.KernelIdeal.Frame
import proofs.«155284_j65103114273337_1_alg».proof.Proof.BlockPay
import proofs.«155284_j65103114273337_1_alg».proof.Proof.Spec
import Idealize.ShloMosaic.Lib.Pipeline.Value
import Idealize.ShloMosaic.Lib.ValueIdx

set_option maxRecDepth 16384

noncomputable section

namespace Cert.KernelIdeal.Acc

open Idealize.ShloMosaic Idealize.ShloMosaic.TcCoe Idealize.ShloMosaic.Tactic Idealize.SL.Sem Cert.KernelIdeal Cert.KernelIdeal.Gen
open Idealize.ShloMosaic.Pipeline (Dat Cfg Window)
open Idealize.ShloMosaic.ValueIdx Cert.SoftBin Cert.KernelIdeal.Pay

variable {F : FTy → Type} [FloatOps F]

/-! ## One grid point's store at (0, 0) -/

/-- The 1 x 1 rectangle at the accumulator block's corner. -/
abbrev corner : Rect S8x128 := Rect.unit (s := S8x128) ![0, 0] S1x1.size inb_S8x128_S1x1_0_0

/-- Its one element is the block's index (0, 0). -/
theorem corner_emb (x : corner.shape.Idx) : corner.emb x = (ix2 0 0 : S8x128.Idx) := by
  funext a
  apply Fin.ext
  match a with
  | ⟨0, _⟩ => have h : (x 0).val < 1 := (x 0).isLt; show 0 + 1 * (x 0).val = 0; omega
  | ⟨1, _⟩ => have h : (x 1).val < 1 := (x 1).isLt; show 0 + 1 * (x 1).val = 0; omega

/-- A load of a whole staging buffer reads its contents. -/
theorem load0 (a : Memref sig .tc .vmem S4096x4x33 .f32) (h : a.IsWhole) (x : Vec F S4096x4x33 .f32) :
    View.readAt (Elt F) a.view (Rect.unit (s := S4096x4x33) ![0, 0, 0] S4096x4x33.size inb_S4096x4x33_S4096x4x33_0_0_0).toLoadRect (h.unread x) = x := by
  rw [View.readAt_eq_ld, h.read_unread]
  exact View.ld_unit_zero (S := S4096x4x33) (funext fun a => by match a with | ⟨0, _⟩ => rfl | ⟨1, _⟩ => rfl | ⟨2, _⟩ => rfl) _ x

theorem load1 (a : Memref sig .tc .vmem S4096x4 .f32) (h : a.IsWhole) (x : Vec F S4096x4 .f32) :
    View.readAt (Elt F) a.view (Rect.unit (s := S4096x4) ![0, 0] S4096x4.size inb_S4096x4_S4096x4_0_0).toLoadRect (h.unread x) = x := by
  rw [View.readAt_eq_ld, h.read_unread]
  exact View.ld_unit_zero (S := S4096x4) (funext fun a => by match a with | ⟨0, _⟩ => rfl | ⟨1, _⟩ => rfl) _ x

theorem load2 (a : Memref sig .tc .vmem S4096x2 .f32) (h : a.IsWhole) (x : Vec F S4096x2 .f32) :
    View.readAt (Elt F) a.view (Rect.unit (s := S4096x2) ![0, 0] S4096x2.size inb_S4096x2_S4096x2_0_0).toLoadRect (h.unread x) = x := by
  rw [View.readAt_eq_ld, h.read_unread]
  exact View.ld_unit_zero (S := S4096x2) (funext fun a => by match a with | ⟨0, _⟩ => rfl | ⟨1, _⟩ => rfl) _ x

theorem load3 (a : Memref sig .tc .vmem S4096 .f32) (h : a.IsWhole) (x : Vec F S4096 .f32) :
    View.readAt (Elt F) a.view (Rect.unit (s := S4096) ![0] S4096.size inb_S4096_S4096_0).toLoadRect (h.unread x) = x := by
  rw [View.readAt_eq_ld, h.read_unread]
  exact View.ld_unit_zero (S := S4096) (funext fun a => by match a with | ⟨0, _⟩ => rfl) _ x

/-- The word the corner holds when it is read back right after the block was zeroed. -/
abbrev accA (arg6 : Memref sig .tc .vmem S8x128 .f32) : Vec F S1x1 .f32 :=
  arg6.view.readCov [⟨Rect.unit (s := S8x128) ![0, 0] S8x128.size inb_S8x128_S8x128_0_0, k0_pay2 (F := F)⟩] corner.toLoadRect

/-- The word the corner holds when the block holds xo4. -/
abbrev accB (arg6 : Memref sig .tc .vmem S8x128 .f32) (harg6 : arg6.IsWhole) (xo4 : Vec F S8x128 .f32) : Vec F S1x1 .f32 :=
  View.readAt (Elt F) arg6.view corner.toLoadRect (harg6.unread xo4)

/-- At a point that zeroes the block first, the corner ends at the stored word over a zero. -/
theorem outA_corner (c : Dev nD) (i : grid0.Coords) (arg2 : Memref sig .tc .vmem S4096x4x33 .f32) (harg2 : arg2.IsWhole) (arg3 : Memref sig .tc .vmem S4096x4 .f32) (harg3 : arg3.IsWhole) (arg4 : Memref sig .tc .vmem S4096x2 .f32) (harg4 : arg4.IsWhole) (arg5 : Memref sig .tc .vmem S4096 .f32) (harg5 : arg5.IsWhole) (arg6 : Memref sig .tc .vmem S8x128 .f32) (harg6 : arg6.IsWhole) (hc0 : cond0_0 i)
    (x0 : Vec F S4096x4x33 .f32) (x1 : Vec F S4096x4 .f32) (x2 : Vec F S4096x2 .f32) (x3 : Vec F S4096 .f32) :
    out0_A_4 c i arg2 harg2 arg3 harg3 arg4 harg4 arg5 harg5 arg6 harg6 hc0 x0 x1 x2 x3 (ix2 0 0)
      = blockPay x0 x1 x2 x3 (accA arg6) (ix2 0 0) := by
  unfold out0_A_4
  unfold kernelRun0_A
  dsimp only
  sl_unfold_words
  rw [← corner_emb (ix2 0 0), View.read_writes_cons_emb]
  rw [load0, load1, load2, load3]
  rfl

/-- At any other point the corner ends at the stored word over what it held. -/
theorem outB_corner (c : Dev nD) (i : grid0.Coords) (arg2 : Memref sig .tc .vmem S4096x4x33 .f32) (harg2 : arg2.IsWhole) (arg3 : Memref sig .tc .vmem S4096x4 .f32) (harg3 : arg3.IsWhole) (arg4 : Memref sig .tc .vmem S4096x2 .f32) (harg4 : arg4.IsWhole) (arg5 : Memref sig .tc .vmem S4096 .f32) (harg5 : arg5.IsWhole) (arg6 : Memref sig .tc .vmem S8x128 .f32) (harg6 : arg6.IsWhole) (hc0 : ¬cond0_0 i)
    (x0 : Vec F S4096x4x33 .f32) (x1 : Vec F S4096x4 .f32) (x2 : Vec F S4096x2 .f32) (x3 : Vec F S4096 .f32) (xo4 : Vec F S8x128 .f32) :
    out0_B_4 c i arg2 harg2 arg3 harg3 arg4 harg4 arg5 harg5 arg6 harg6 hc0 x0 x1 x2 x3 xo4 (ix2 0 0)
      = blockPay x0 x1 x2 x3 (accB arg6 harg6 xo4) (ix2 0 0) := by
  unfold out0_B_4
  unfold kernelRun0_B
  dsimp only
  sl_unfold_words
  rw [← corner_emb (ix2 0 0), View.read_writes_cons_emb]
  rw [load0, load1, load2, load3]
  rfl

/-! ## The word read back -/

/-- Read back right after the block was zeroed, the corner holds the zero pattern. -/
theorem accA_corner (arg6 : Memref sig .tc .vmem S8x128 .f32) :
    accA (F := F) arg6 (ix2 0 0) = FloatOps.ofBits .f32 0#32 := by
  unfold accA
  rw [View.readCov_eq_canon']
  show View.canon [(⟨Rect.unit (s := S8x128) ![0, 0] S8x128.size inb_S8x128_S8x128_0_0, k0_pay2 (F := F)⟩ : View.Piece (Elt F) S8x128 .f32)] _ = _
  rw [View.canon_unit_zero (S := S8x128) (funext fun a => by match a with | ⟨0, _⟩ => rfl | ⟨1, _⟩ => rfl)]
  rfl

/-- Read back at any other point, the corner holds what the block held there. -/
theorem accB_corner (arg6 : Memref sig .tc .vmem S8x128 .f32) (harg6 : arg6.IsWhole) (xo4 : Vec F S8x128 .f32) :
    accB arg6 harg6 xo4 (ix2 0 0) = xo4 (ix2 0 0) := by
  unfold accB
  rw [View.readAt_eq_ld, harg6.read_unread]
  show xo4 (corner.idx (ix2 0 0)) = xo4 (ix2 0 0)
  exact congrArg xo4 (corner_emb (ix2 0 0))

/-! ## Point by point -/

variable (m : (ℓ : Loc nD τ sig) → Buf (Elt F) ℓ)

/-- Grid point t's four input blocks, at their literal shapes. -/
abbrev xb0 (c : Dev nD) (t : Fin cfg0.N) : Vec F S4096x4x33 .f32 := iblk m c 0 t
abbrev xb1 (c : Dev nD) (t : Fin cfg0.N) : Vec F S4096x4 .f32 := iblk m c 1 t
abbrev xb2 (c : Dev nD) (t : Fin cfg0.N) : Vec F S4096x2 .f32 := iblk m c 2 t
abbrev xb3 (c : Dev nD) (t : Fin cfg0.N) : Vec F S4096 .f32 := iblk m c 3 t

/-- The corner after a point that opens a half: the stored word over the zero pattern. -/
theorem corner_first (c : Dev nD) (t : Fin cfg0.N) (h0 : t.val % 37 = 0) :
    outsAt0 m c t.val t.isLt (ix2 0 0)
      = blockPay (xb0 m c t) (xb1 m c t) (xb2 m c t) (xb3 m c t) (accA (ms0_4 t)) (ix2 0 0) := by
  rw [outsAt0_A m c t h0]
  exact outA_corner c (grid0.coords t) (ms0_0 t) (hs0_0 t) (ms0_1 t) (hs0_1 t) (ms0_2 t) (hs0_2 t) (ms0_3 t) (hs0_3 t) (ms0_4 t) (hs0_4 t)
    ((hcond0_0 t).mpr h0) (iblk m c 0 t) (iblk m c 1 t) (iblk m c 2 t) (iblk m c 3 t)

/-- The corner after any other point: the stored word over what the point before left. -/
theorem corner_next (c : Dev nD) (t : Fin cfg0.N) (h0 : ¬t.val % 37 = 0) :
    outsAt0 m c t.val t.isLt (ix2 0 0)
      = blockPay (xb0 m c t) (xb1 m c t) (xb2 m c t) (xb3 m c t)
          (accB (ms0_4 t) (hs0_4 t) (outsAt0 m c (t.val - 1) (Nat.lt_of_le_of_lt (Nat.sub_le _ _) t.isLt))) (ix2 0 0) := by
  rw [outsAt0_B m c t h0]
  exact outB_corner c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) (iblk m c 0 t) (iblk m c 1 t) (iblk m c 2 t) (iblk m c 3 t)
    (outsAt0 m c (t.val - 1) (Nat.lt_of_le_of_lt (Nat.sub_le _ _) t.isLt))

/-! ## The array after the region -/

/-- What a point writes back: the block as the point left it. -/
theorem flushed4 (c : Dev nD) (t : Fin cfg0.N) :
    (dats m 0 c).flushed 4 t = (cfg0.win 4).cut (grid0.coords t) (outsAt0 m c t.val t.isLt) := by
  show (cfg0.win 4).cut (grid0.coords t) ((dats m 0 c).after 4 t) = _
  rw [after0_4]

/-- The two points that write back do so to different blocks. -/
theorem idx_ne4 : ∀ t t' : Fin cfg0.N, (cfg0.win 4).flush t = true → (cfg0.win 4).flush t' = true → t ≠ t' →
    win0_4.index t ≠ win0_4.index t' :=
  (by decide +kernel : ∀ t t' : Fin grid0.N, win0_4.flush t = true → win0_4.flush t' = true → t ≠ t' → win0_4.index t ≠ win0_4.index t')

theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk (idx_ne4 t t' hf hf' hne)

/-- The accumulator array after the last write-back, at its literal type. -/
abbrev outArr (c : Dev nD) : S16x128.Idx → Elt F .f32 := (dats m 0 c).arrAt 4 cfg0.N

/-- The two points that write back. -/
abbrev t36 : Fin cfg0.N := ⟨36, by decide⟩
abbrev t73 : Fin cfg0.N := ⟨73, by decide⟩

/-- Which block each of them writes. -/
theorem idx_36 : win0_4.index t36 = ![0, 0] := by decide +kernel
theorem idx_73 : win0_4.index t73 = ![1, 0] := by decide +kernel

/-- The array's word (0, 0) is the corner as point 36 left it. -/
theorem arr_00 (c : Dev nD) : outArr m c (ix2 0 0) = outsAt0 m c 36 (by decide) (ix2 0 0) := by
  have hf : (cfg0.win 4).flush t36 = true := (flush0_4 _).mpr rfl
  have h := (dats m 0 c).arrAt_emb_eq_flushed 4 disjoint4 t36 hf (ix2 0 0)
  rw [flushed4, cast_eq] at h
  refine Eq.trans (congrArg (outArr m c) ?_) (h.trans rfl)
  funext a
  apply Fin.ext
  match a with
  | ⟨0, _⟩ => show 0 = win0_4.index t36 0 * 8 + 1 * 0; rw [idx_36]; rfl
  | ⟨1, _⟩ => show 0 = win0_4.index t36 1 * 128 + 1 * 0; rw [idx_36]; rfl

/-- The array's word (8, 0) is the corner as point 73 left it. -/
theorem arr_80 (c : Dev nD) : outArr m c (ix2 8 0) = outsAt0 m c 73 (by decide) (ix2 0 0) := by
  have hf : (cfg0.win 4).flush t73 = true := (flush0_4 _).mpr rfl
  have h := (dats m 0 c).arrAt_emb_eq_flushed 4 disjoint4 t73 hf (ix2 0 0)
  rw [flushed4, cast_eq] at h
  refine Eq.trans (congrArg (outArr m c) ?_) (h.trans rfl)
  funext a
  apply Fin.ext
  match a with
  | ⟨0, _⟩ => show 8 = win0_4.index t73 0 * 8 + 1 * 0; rw [idx_73]; rfl
  | ⟨1, _⟩ => show 0 = win0_4.index t73 1 * 128 + 1 * 0; rw [idx_73]; rfl

end Cert.KernelIdeal.Acc

end
-- ==== Proof.KernelPayload.lean ====
/-
  What one grid point adds to the running total: the stored 1x1 word, as a function of the point's four input
  blocks (4096 rows of logits, boxes, points and weights) and of the word the accumulator held before. Read at
  the exact reals it is the old word plus the sum, over the block's 4096 rows and 4 sides, of the side's loss in
  its first spelling.

  The road: each intermediate vector of the body is read at one index (row r, side j, bin k) as the matching
  scalar term of the specification; the last reduction is the total sum over the 4096 x 4 products.
-/
import proofs.«155284_j65103114273337_1_alg».proof.Proof.Gen.KernelIdeal.Skeleton
import proofs.«155284_j65103114273337_1_alg».proof.Proof.Spec
import proofs.«155284_j65103114273337_1_alg».proof.Proof.BlockPay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.TcCoe Idealize.SL.Sem Cert.KernelIdeal Cert.KernelIdeal.Gen
open Idealize.ShloMosaic.ValueIdx Cert.SoftBin

section Layout
variable {α : Type}

/-- A vector of 4096 entries viewed as a one-column matrix reads its entry r at (r, 0). -/
theorem castCol_apply (w : S4096.Idx → α) (h : S4096.ShapeCasts S4096x1) (r : Fin 4096) (c : Fin 1) :
    shapeCast S4096x1 w h (ix2 r c) = w (ix1 r) :=
  shapeCast_apply w h (ix2 r c) (ix1 r) (by
    rw [Shape.rowMajor_val_one, Shape.rowMajor_val_two]
    have := c.isLt
    show r.val = r.val * 1 + c.val
    omega)

/-- A one-column matrix viewed as a vector reads (r, 0) at r. -/
theorem castRow_apply (u : S4096x1.Idx → α) (h : S4096x1.ShapeCasts S4096) (r : Fin 4096) :
    shapeCast S4096 u h (ix1 r) = u (ix2 r 0) :=
  shapeCast_apply u h (ix1 r) (ix2 r 0) (by
    rw [Shape.rowMajor_val_one, Shape.rowMajor_val_two]
    show r.val * 1 + 0 = r.val
    omega)

/-- Column o of a matrix of 4096 rows, cut out as a one-column matrix, reads (r, o) at (r, 0). -/
theorem sliceCol_apply {C : Nat} (x : (⟨2, ![4096, C]⟩ : Shape).Idx → α) (o : Nat) (ho : o < C)
    (h : (⟨2, ![4096, C]⟩ : Shape).Slices ![0, o] S4096x1) (r : Fin 4096) (c : Fin 1) :
    extractStridedSlice S4096x1 ![0, o] x h (ix2 r c) = x (ix2 r ⟨o, ho⟩) :=
  extractStridedSlice_apply ![0, o] x h (ix2 r c) (ix2 r ⟨o, ho⟩) (fun a => match a with
    | ⟨0, _⟩ => by show r.val = 0 + r.val; omega
    | ⟨1, _⟩ => by have := c.isLt; show o = o + c.val; omega)

/-- Column o as a vector. -/
theorem colVec_apply {C : Nat} (x : (⟨2, ![4096, C]⟩ : Shape).Idx → α) (o : Nat) (ho : o < C)
    (h : (⟨2, ![4096, C]⟩ : Shape).Slices ![0, o] S4096x1) (h' : S4096x1.ShapeCasts S4096) (r : Fin 4096) :
    shapeCast S4096 (extractStridedSlice S4096x1 ![0, o] x h) h' (ix1 r) = x (ix2 r ⟨o, ho⟩) :=
  (castRow_apply _ h' r).trans (sliceCol_apply x o ho h r 0)

end Layout
section Cat
variable {α : Type}

theorem cat4_0 (a b c d : S4096x1.Idx → α) (h : Shape.Concatenates (([⟨S4096x1, a⟩, ⟨S4096x1, b⟩, ⟨S4096x1, c⟩, ⟨S4096x1, d⟩] : List ((s : Shape) × (s.Idx → α))).map (·.1)) S4096x4 1)
    (r : Fin 4096) (hj : 0 < 4) :
    concatenate S4096x4 1 [⟨S4096x1, a⟩, ⟨S4096x1, b⟩, ⟨S4096x1, c⟩, ⟨S4096x1, d⟩] h (ix2 r ⟨0, hj⟩) = a (ix2 r 0) :=
  concatenate_apply_piece (1 : Fin 2) [⟨S4096x1, a⟩, ⟨S4096x1, b⟩, ⟨S4096x1, c⟩, ⟨S4096x1, d⟩] h (ix2 r ⟨0, hj⟩) 0 (by show _ < 4; omega) S4096x1 a rfl rfl 0 rfl (ix2 r 0)
      (fun b hb => match b with | ⟨0, _⟩ => rfl | ⟨1, _⟩ => absurd rfl hb) rfl

theorem cat4_1 (a b c d : S4096x1.Idx → α) (h : Shape.Concatenates (([⟨S4096x1, a⟩, ⟨S4096x1, b⟩, ⟨S4096x1, c⟩, ⟨S4096x1, d⟩] : List ((s : Shape) × (s.Idx → α))).map (·.1)) S4096x4 1)
    (r : Fin 4096) (hj : 1 < 4) :
    concatenate S4096x4 1 [⟨S4096x1, a⟩, ⟨S4096x1, b⟩, ⟨S4096x1, c⟩, ⟨S4096x1, d⟩] h (ix2 r ⟨1, hj⟩) = b (ix2 r 0) :=
  concatenate_apply_piece (1 : Fin 2) [⟨S4096x1, a⟩, ⟨S4096x1, b⟩, ⟨S4096x1, c⟩, ⟨S4096x1, d⟩] h (ix2 r ⟨1, hj⟩) 1 (by show _ < 4; omega) S4096x1 b rfl rfl 1 rfl (ix2 r 0)
      (fun b hb => match b with | ⟨0, _⟩ => rfl | ⟨1, _⟩ => absurd rfl hb) rfl

theorem cat4_2 (a b c d : S4096x1.Idx → α) (h : Shape.Concatenates (([⟨S4096x1, a⟩, ⟨S4096x1, b⟩, ⟨S4096x1, c⟩, ⟨S4096x1, d⟩] : List ((s : Shape) × (s.Idx → α))).map (·.1)) S4096x4 1)
    (r : Fin 4096) (hj : 2 < 4) :
    concatenate S4096x4 1 [⟨S4096x1, a⟩, ⟨S4096x1, b⟩, ⟨S4096x1, c⟩, ⟨S4096x1, d⟩] h (ix2 r ⟨2, hj⟩) = c (ix2 r 0) :=
  concatenate_apply_piece (1 : Fin 2) [⟨S4096x1, a⟩, ⟨S4096x1, b⟩, ⟨S4096x1, c⟩, ⟨S4096x1, d⟩] h (ix2 r ⟨2, hj⟩) 2 (by show _ < 4; omega) S4096x1 c rfl rfl 2 rfl (ix2 r 0)
      (fun b hb => match b with | ⟨0, _⟩ => rfl | ⟨1, _⟩ => absurd rfl hb) rfl

theorem cat4_3 (a b c d : S4096x1.Idx → α) (h : Shape.Concatenates (([⟨S4096x1, a⟩, ⟨S4096x1, b⟩, ⟨S4096x1, c⟩, ⟨S4096x1, d⟩] : List ((s : Shape) × (s.Idx → α))).map (·.1)) S4096x4 1)
    (r : Fin 4096) (hj : 3 < 4) :
    concatenate S4096x4 1 [⟨S4096x1, a⟩, ⟨S4096x1, b⟩, ⟨S4096x1, c⟩, ⟨S4096x1, d⟩] h (ix2 r ⟨3, hj⟩) = d (ix2 r 0) :=
  concatenate_apply_piece (1 : Fin 2) [⟨S4096x1, a⟩, ⟨S4096x1, b⟩, ⟨S4096x1, c⟩, ⟨S4096x1, d⟩] h (ix2 r ⟨3, hj⟩) 3 (by show _ < 4; omega) S4096x1 d rfl rfl 3 rfl (ix2 r 0)
      (fun b hb => match b with | ⟨0, _⟩ => rfl | ⟨1, _⟩ => absurd rfl hb) rfl

end Cat

/-- The clipped distance of side j of row r. -/
theorem pay5_apply (x1 : Vec Ideal S4096x4 .f32) (x2 : Vec Ideal S4096x2 .f32) (r : Fin 4096) (j : Fin 4) :
    k0_pay5 (F := Ideal) x1 x2 (ix2 r j) = SoftBin.dist (dqOf (fun a => x1 (ix2 r a)) (fun a => x2 (ix2 r a)) j) := by
  unfold k0_pay5 SoftBin.dist
  show min (lit 0x42000000#32) (max (lit 0x00000000#32) (concatenate S4096x4 1 _ _ (ix2 r j))) = _
  congr 2
  rw [shapeCast_self x1, shapeCast_self x2]
  obtain ⟨j, hj⟩ := j
  interval_cases j
  · refine (cat4_0 _ _ _ _ _ r hj).trans ?_
    refine (castCol_apply _ _ r 0).trans ?_
    show shapeCast S4096 _ _ (ix1 r) - shapeCast S4096 _ _ (ix1 r) = _
    rw [colVec_apply x2 0 (by omega), colVec_apply x1 0 (by omega)]
    rfl
  · refine (cat4_1 _ _ _ _ _ r hj).trans ?_
    refine (castCol_apply _ _ r 0).trans ?_
    show shapeCast S4096 _ _ (ix1 r) - shapeCast S4096 _ _ (ix1 r) = _
    rw [colVec_apply x1 2 (by omega), colVec_apply x2 0 (by omega)]
    rfl
  · refine (cat4_2 _ _ _ _ _ r hj).trans ?_
    refine (castCol_apply _ _ r 0).trans ?_
    show shapeCast S4096 _ _ (ix1 r) - shapeCast S4096 _ _ (ix1 r) = _
    rw [colVec_apply x2 1 (by omega), colVec_apply x1 1 (by omega)]
    rfl
  · refine (cat4_3 _ _ _ _ _ r hj).trans ?_
    refine (castCol_apply _ _ r 0).trans ?_
    show shapeCast S4096 _ _ (ix1 r) - shapeCast S4096 _ _ (ix1 r) = _
    rw [colVec_apply x1 3 (by omega), colVec_apply x2 1 (by omega)]
    rfl

/-- The integer part. -/
theorem pay6_apply (x1 : Vec Ideal S4096x4 .f32) (x2 : Vec Ideal S4096x2 .f32) (i : S4096x4.Idx) :
    k0_pay6 (F := Ideal) x1 x2 i = dfl (k0_pay5 (F := Ideal) x1 x2 i) := rfl

/-- The fractional part. -/
theorem pay7_apply (x1 : Vec Ideal S4096x4 .f32) (x2 : Vec Ideal S4096x2 .f32) (i : S4096x4.Idx) :
    k0_pay7 (F := Ideal) x1 x2 i = fr (k0_pay5 (F := Ideal) x1 x2 i) := rfl

/-- The integer part plus one. -/
theorem pay8_apply (x1 : Vec Ideal S4096x4 .f32) (x2 : Vec Ideal S4096x2 .f32) (i : S4096x4.Idx) :
    k0_pay8 (F := Ideal) x1 x2 i = IntOp.addi (dfl (k0_pay5 (F := Ideal) x1 x2 i)) 1#32 := rfl

/-- The last bin's number. -/
theorem pay9_apply (i : S4096x4.Idx) : k0_pay9 i = 32#32 := rfl

section Layout3
variable {α : Type}

/-- A 4096 x 4 matrix viewed with a trailing unit axis reads (r, j) at (r, j, 0). -/
theorem cast3_apply (u : S4096x4.Idx → α) (h : S4096x4.ShapeCasts S4096x4x1) (r : Fin 4096) (j : Fin 4) (c : Fin 1) :
    shapeCast S4096x4x1 u h (ix3 r j c) = u (ix2 r j) :=
  shapeCast_apply u h (ix3 r j c) (ix2 r j) (by
    rw [Shape.rowMajor_val_two, Shape.rowMajor_val_three]
    have := c.isLt
    show r.val * 4 + j.val = (r.val * 4 + j.val) * 1 + c.val
    omega)

/-- Spread along the bins, it reads (r, j, 0) at every (r, j, k). -/
theorem bcLast_apply (u : S4096x4x1.Idx → α) (h : S4096x4x1.Broadcasts S4096x4x33) (r : Fin 4096) (j : Fin 4) (k : Fin 33) :
    broadcastTo S4096x4x33 u h (ix3 r j k) = u (ix3 r j 0) :=
  broadcastTo_apply u h (ix3 r j k) (ix3 r j 0) (fun a => match a with
    | ⟨0, _⟩ => rfl
    | ⟨1, _⟩ => rfl
    | ⟨2, _⟩ => rfl)

/-- The two together. -/
theorem spread_apply (u : S4096x4.Idx → α) (h : S4096x4.ShapeCasts S4096x4x1) (h' : S4096x4x1.Broadcasts S4096x4x33)
    (r : Fin 4096) (j : Fin 4) (k : Fin 33) :
    broadcastTo S4096x4x33 (shapeCast S4096x4x1 u h) h' (ix3 r j k) = u (ix2 r j) :=
  (bcLast_apply _ h' r j k).trans (cast3_apply u h r j 0)

/-- The bin numbers, spread over rows and sides, read k at (r, j, k). -/
theorem binNo_apply (h0 : S1x33.Iotas .tc 32 [1]) (h1 : S1x33.ShapeCasts S33) (h2 : S33.ShapeCasts S1x1x33)
    (h3 : S1x1x33.Broadcasts S4096x4x33) (r : Fin 4096) (j : Fin 4) (k : Fin 33) :
    broadcastTo S4096x4x33 (shapeCast S1x1x33 (shapeCast S33 (iota .tc S1x33 32 [1] h0) h1) h2) h3 (ix3 r j k)
      = BitVec.ofNat 32 k.val := by
  refine (broadcastTo_apply _ h3 (ix3 r j k) (ix3 0 0 k) (fun a => match a with
    | ⟨0, _⟩ => rfl
    | ⟨1, _⟩ => rfl
    | ⟨2, _⟩ => rfl)).trans ?_
  refine (shapeCast_apply _ h2 (ix3 0 0 k) (ix1 k) (by
    rw [Shape.rowMajor_val_one, Shape.rowMajor_val_three]
    show k.val = (0 * 1 + 0) * 33 + k.val
    omega)).trans ?_
  refine (shapeCast_apply _ h1 (ix1 k) (ix2 0 k) (by
    rw [Shape.rowMajor_val_one, Shape.rowMajor_val_two]
    show 0 * 33 + k.val = k.val
    omega)).trans ?_
  exact iota_single_apply .tc S1x33 32 1 h0 (ix2 0 k)

end Layout3

/-- The soft label of bin k. -/
theorem pay10_apply (v37 : IVec S4096x4 32) (v39 : FVec Ideal S4096x4 .f32) (v41 v42 : IVec S4096x4 32)
    (r : Fin 4096) (j : Fin 4) (k : Fin 33) :
    k0_pay10 (F := Ideal) v37 v39 v41 v42 (ix3 r j k)
      = Scalar.select (IntOp.cmpi .eq (BitVec.ofNat 32 k.val) (IntOp.minsi (v41 (ix2 r j)) (v42 (ix2 r j)))) (v39 (ix2 r j))
          (Scalar.select (IntOp.cmpi .eq (BitVec.ofNat 32 k.val) (v37 (ix2 r j))) (lit 0x3F800000#32 - v39 (ix2 r j))
            (lit 0x00000000#32)) := by
  unfold k0_pay10
  show Scalar.select (IntOp.cmpi .eq (broadcastTo S4096x4x33 _ _ (ix3 r j k)) (broadcastTo S4096x4x33 _ _ (ix3 r j k)))
      (broadcastTo S4096x4x33 _ _ (ix3 r j k))
      (Scalar.select (IntOp.cmpi .eq (broadcastTo S4096x4x33 _ _ (ix3 r j k)) (broadcastTo S4096x4x33 _ _ (ix3 r j k)))
        (broadcastTo S4096x4x33 _ _ (ix3 r j k)) (lit 0x00000000#32)) = _
  rw [binNo_apply, shapeCast_self, shapeCast_self, spread_apply, spread_apply, spread_apply, bcLast_apply]
  show Scalar.select _ _ (Scalar.select _ (lit 0x3F800000#32 - shapeCast S4096x4x1 v39 _ (ix3 r j 0)) _) = _
  rw [cast3_apply]
  rfl

section Layout2
variable {α : Type}

/-- A one-column matrix spread over four columns reads (r, 0) at every (r, j). -/
theorem bcCol_apply (u : S4096x1.Idx → α) (h : S4096x1.Broadcasts S4096x4) (r : Fin 4096) (j : Fin 4) :
    broadcastTo S4096x4 u h (ix2 r j) = u (ix2 r 0) :=
  broadcastTo_apply u h (ix2 r j) (ix2 r 0) (fun a => match a with
    | ⟨0, _⟩ => rfl
    | ⟨1, _⟩ => rfl)

end Layout2

/-- The side's weight. -/
theorem pay11_apply (v10 : FVec Ideal S4096 .f32) (v35 : FVec Ideal S4096x4 .f32) (r : Fin 4096) (j : Fin 4) :
    k0_pay11 (F := Ideal) v10 v35 (ix2 r j) = wgt (v35 (ix2 r j)) (v10 (ix1 r)) := by
  unfold k0_pay11 wgt
  show _ * broadcastTo S4096x4 _ _ (ix2 r j) = _
  rw [bcCol_apply, castCol_apply]
  rfl

/-- The source index of a reduction along the bins. -/
theorem lift_eq (h : S4096x4x33.Reduces [2] S4096x4) (r : Fin 4096) (j : Fin 4) (k : Fin 33) :
    h.lift (ix2 r j) k = ix3 r j k := by
  funext a
  apply Fin.ext
  match a with
  | ⟨0, _⟩ => rfl
  | ⟨1, _⟩ => rfl
  | ⟨2, _⟩ => rfl

/-- A sum along the bins. -/
theorem rowSum_apply (v : FVec Ideal S4096x4x33 .f32) (h : S4096x4x33.Reduces [2] S4096x4) (hφ : FKind.Formats .f32)
    (hacc : (0x00000000#32 : BitVec 32) = FKind.add.neutral .f32 hφ) (r : Fin 4096) (j : Fin 4) :
    multiReduction (F := Ideal) .add [2] S4096x4 v 0x00000000#32 h hφ hacc (ix2 r j) = ∑ k : Fin 33, v (ix3 r j k) :=
  (Ideal.multiReduction_add_single v _ h hφ hacc (ix2 r j)).trans
    (Finset.sum_congr rfl fun k _ => congrArg v (lift_eq h r j k))

/-- A maximum along the bins. -/
theorem rowMax_apply (v : FVec Ideal S4096x4x33 .f32) (h : S4096x4x33.Reduces [2] S4096x4) (hφ : FKind.Formats .f32)
    (hacc : (0xFF800000#32 : BitVec 32) = FKind.maximumf.neutral .f32 hφ) (r : Fin 4096) (j : Fin 4) :
    multiReduction (F := Ideal) .maximumf [2] S4096x4 v 0xFF800000#32 h hφ hacc (ix2 r j)
      = (Finset.univ : Finset (Fin 33)).fold max (lit 0xFF800000#32) (fun k => v (ix3 r j k)) := by
  refine (Ideal.multiReduction_maximumf_single v _ h hφ hacc (ix2 r j)).trans ?_
  congr 1
  funext k
  exact congrArg v (lift_eq h r j k)

/-- The largest logit of the row, as the body takes it. -/
theorem pay12_rmax (v4 : FVec Ideal S4096x4x33 .f32) (h : S4096x4x33.Reduces [2] S4096x4) (hφ : FKind.Formats .f32)
    (hacc : (0xFF800000#32 : BitVec 32) = FKind.maximumf.neutral .f32 hφ) (r : Fin 4096) (j : Fin 4) :
    maximumf (broadcast S4096x4 (Scalar.ofBits (F := Ideal) .f32 0xFF800000#32))
        (multiReduction (F := Ideal) .maximumf [2] S4096x4 v4 0xFF800000#32 h hφ hacc) (ix2 r j)
      = rmax (fun k => v4 (ix3 r j k)) :=
  (maximumf_apply _ _ (ix2 r j)).trans (congrArg (max (lit 0xFF800000#32)) (rowMax_apply v4 h hφ hacc r j))

/-- The log-softmax from the row's largest logit: the shifted logits less the logarithm of the sum of their
    exponentials. -/
theorem lsm_core (v4 : FVec Ideal S4096x4x33 .f32) (m : FVec Ideal S4096x4 .f32)
    (hm : ∀ (r : Fin 4096) (j : Fin 4), m (ix2 r j) = rmax (fun k => v4 (ix3 r j k)))
    (h1 : S4096x4.ShapeCasts S4096x4x1) (h2 : S4096x4x1.Broadcasts S4096x4x33)
    (h : S4096x4x33.Reduces [2] S4096x4) (hφ : FKind.Formats .f32)
    (hacc : (0x00000000#32 : BitVec 32) = FKind.add.neutral .f32 hφ) (r : Fin 4096) (j : Fin 4) (k : Fin 33) :
    subf (subf v4 (broadcastTo S4096x4x33 (shapeCast S4096x4x1 m h1) h2))
        (broadcastTo S4096x4x33 (log (shapeCast S4096x4x1
          (multiReduction (F := Ideal) .add [2] S4096x4 (exp (subf v4 (broadcastTo S4096x4x33 (shapeCast S4096x4x1 m h1) h2)))
            0x00000000#32 h hφ hacc) h1)) h2) (ix3 r j k)
      = lsmK (fun k => v4 (ix3 r j k)) k := by
  have hb : ∀ k' : Fin 33, broadcastTo S4096x4x33 (shapeCast S4096x4x1 m h1) h2 (ix3 r j k') = rmax (fun k => v4 (ix3 r j k)) :=
    fun k' => (spread_apply m h1 h2 r j k').trans (hm r j)
  have hsh : ∀ k' : Fin 33, subf v4 (broadcastTo S4096x4x33 (shapeCast S4096x4x1 m h1) h2) (ix3 r j k')
      = sh (fun k => v4 (ix3 r j k)) k' :=
    fun k' => congrArg (fun t => v4 (ix3 r j k') - t) (hb k')
  have hsum : multiReduction (F := Ideal) .add [2] S4096x4 (exp (subf v4 (broadcastTo S4096x4x33 (shapeCast S4096x4x1 m h1) h2)))
      0x00000000#32 h hφ hacc (ix2 r j) = ∑ k' : Fin 33, Ideal.exp (sh (fun k => v4 (ix3 r j k)) k') :=
    (rowSum_apply _ h hφ hacc r j).trans (Finset.sum_congr rfl fun k' _ => congrArg Ideal.exp (hsh k'))
  have hlog : broadcastTo S4096x4x33 (log (shapeCast S4096x4x1
        (multiReduction (F := Ideal) .add [2] S4096x4 (exp (subf v4 (broadcastTo S4096x4x33 (shapeCast S4096x4x1 m h1) h2)))
          0x00000000#32 h hφ hacc) h1)) h2 (ix3 r j k)
      = Ideal.log (∑ k' : Fin 33, Ideal.exp (sh (fun k => v4 (ix3 r j k)) k')) :=
    (bcLast_apply _ h2 r j k).trans (congrArg Ideal.log ((cast3_apply _ h1 r j 0).trans hsum))
  exact congrArg₂ (fun a b : EReal => a - b) (hsh k) hlog

/-- The log-softmax of a row of logits. -/
theorem pay12_apply (v4 : FVec Ideal S4096x4x33 .f32) (r : Fin 4096) (j : Fin 4) (k : Fin 33) :
    k0_pay12 (F := Ideal) v4 (ix3 r j k) = lsmK (fun k => v4 (ix3 r j k)) k :=
  lsm_core v4 _ (fun r j => pay12_rmax v4 _ _ _ r j) _ _ _ _ _ r j k

/-- The softmax. -/
theorem pay13_apply (v4 : FVec Ideal S4096x4x33 .f32) (i : S4096x4x33.Idx) :
    k0_pay13 (F := Ideal) v4 i = Ideal.exp (k0_pay12 (F := Ideal) v4 i) := rfl

/-- The soft label where it is positive, one elsewhere. -/
theorem pay14_apply (v37 : IVec S4096x4 32) (v39 : FVec Ideal S4096x4 .f32) (v41 v42 : IVec S4096x4 32) (i : S4096x4x33.Idx) :
    k0_pay14 (F := Ideal) v37 v39 v41 v42 i
      = Scalar.select (Ideal.cmp .ogt (k0_pay10 (F := Ideal) v37 v39 v41 v42 i) (lit 0x00000000#32))
          (k0_pay10 (F := Ideal) v37 v39 v41 v42 i) (lit 0x3F800000#32) := rfl

/-- The logits and the weights enter unchanged. -/
theorem pay3_eq (x0 : Vec Ideal S4096x4x33 .f32) : k0_pay3 (F := Ideal) x0 = x0 := shapeCast_self x0 _
theorem pay4_eq (x3 : Vec Ideal S4096 .f32) : k0_pay4 (F := Ideal) x3 = x3 := shapeCast_self x3 _

/-- A sum over a reshaped vector is the sum over the vector. -/
theorem sum_shapeCast {s t : Shape} (x : s.Idx → EReal) (h : s.ShapeCasts t) :
    ∑ j : t.Idx, shapeCast t x h j = ∑ i : s.Idx, x i :=
  Equiv.sum_comp (Shape.reshapeEquiv h) x

set_option maxRecDepth 16384 in
/-- The stored word: the old word plus the sum over rows and sides of the product of the four factors. -/
theorem pay1_apply (v66 : FVec Ideal S4096x4x33 .f32) (v74 : FVec Ideal S4096x4 .f32) (v86 v87 v91 : FVec Ideal S4096x4x33 .f32)
    (c : Ideal .f32) (acc : Vec Ideal S1x1 .f32) :
    k0_pay1 (F := Ideal) v66 v74 v86 v87 v91 c acc (ix2 0 0)
      = acc (ix2 0 0) + ∑ r : Fin 4096, ∑ j : Fin 4,
          lit 0x3E800000#32
            * ((lit 0x3F800000#32 - min (lit 0x3F800000#32) (max (lit 0x358637BD#32) (∑ k : Fin 33, v87 (ix3 r j k) * v66 (ix3 r j k))))
              * (lit 0x3F800000#32 - min (lit 0x3F800000#32) (max (lit 0x358637BD#32) (∑ k : Fin 33, v87 (ix3 r j k) * v66 (ix3 r j k)))))
            * (∑ k : Fin 33, (Scalar.select (Ideal.cmp .ogt (v66 (ix3 r j k)) c) (v66 (ix3 r j k) * Ideal.log (v91 (ix3 r j k))) (lit 0x00000000#32)
                - v66 (ix3 r j k) * v86 (ix3 r j k)))
            * v74 (ix2 r j) := by
  unfold k0_pay1
  show shapeCast S1x1 acc _ (ix2 0 0) + extractAt ![0, 0, 0] (shapeCast S1x1x1 _ _) _ = _
  rw [shapeCast_self]
  refine congrArg (fun t => acc (ix2 0 0) + t) ?_
  unfold extractAt
  refine (shapeCast_apply _ _ _ (ix1 0) (by rw [Shape.rowMajor_val_one, Shape.rowMajor_val_three]; rfl)).trans ?_
  refine (Ideal.multiReduction_add_total _ _ _ (fun b => match b with | ⟨0, _⟩ => rfl) _ _ (ix1 0)).trans ?_
  refine (sum_shapeCast _ _).trans ?_
  rw [sum_idx2]
  refine Finset.sum_congr rfl fun r _ => Finset.sum_congr rfl fun j _ => ?_
  show lit 0x3E800000#32
      * ((lit 0x3F800000#32 - min (lit 0x3F800000#32) (max (lit 0x358637BD#32) (multiReduction (F := Ideal) .add [2] S4096x4 _ _ _ _ _ (ix2 r j))))
        * (lit 0x3F800000#32 - min (lit 0x3F800000#32) (max (lit 0x358637BD#32) (multiReduction (F := Ideal) .add [2] S4096x4 _ _ _ _ _ (ix2 r j)))))
      * multiReduction (F := Ideal) .add [2] S4096x4 _ _ _ _ _ (ix2 r j) * v74 (ix2 r j) = _
  refine (congrArg₂ (fun s1 s2 : EReal => lit 0x3E800000#32
      * ((lit 0x3F800000#32 - min (lit 0x3F800000#32) (max (lit 0x358637BD#32) s1))
        * (lit 0x3F800000#32 - min (lit 0x3F800000#32) (max (lit 0x358637BD#32) s1)))
      * s2 * v74 (ix2 r j)) (rowSum_apply _ _ _ _ r j) (rowSum_apply _ _ _ _ r j)).trans ?_
  rfl

/-- At the exact reals the stored word is the old word plus the block's 4096 x 4 losses. -/
theorem blockPay_apply (x0 : Vec Ideal S4096x4x33 .f32) (x1 : Vec Ideal S4096x4 .f32) (x2 : Vec Ideal S4096x2 .f32)
    (x3 : Vec Ideal S4096 .f32) (acc : Vec Ideal S1x1 .f32) :
    blockPay (F := Ideal) x0 x1 x2 x3 acc (ix2 0 0)
      = acc (ix2 0 0) + ∑ r : Fin 4096, ∑ j : Fin 4,
          lossK (fun k => x0 (ix3 r j k)) (dqOf (fun a => x1 (ix2 r a)) (fun a => x2 (ix2 r a)) j) (x3 (ix1 r)) := by
  unfold blockPay
  refine (pay1_apply _ _ _ _ _ _ acc).trans ?_
  refine congrArg (fun t => acc (ix2 0 0) + t) ?_
  refine Finset.sum_congr rfl fun r _ => Finset.sum_congr rfl fun j _ => ?_
  have hs : ∀ k : Fin 33, k0_pay10 (F := Ideal) (k0_pay6 x1 x2) (k0_pay7 x1 x2) (k0_pay8 x1 x2) k0_pay9 (ix3 r j k)
      = soft (SoftBin.dist (dqOf (fun a => x1 (ix2 r a)) (fun a => x2 (ix2 r a)) j)) k := by
    intro k
    rw [pay10_apply, pay6_apply, pay7_apply, pay8_apply, pay9_apply, pay5_apply]
    rfl
  have hl : ∀ k : Fin 33, k0_pay12 (F := Ideal) (k0_pay3 x0) (ix3 r j k) = lsmK (fun k => x0 (ix3 r j k)) k := by
    intro k
    rw [pay3_eq, pay12_apply]
  have hw : k0_pay11 (F := Ideal) (k0_pay4 x3) (k0_pay5 x1 x2) (ix2 r j)
      = wgt (SoftBin.dist (dqOf (fun a => x1 (ix2 r a)) (fun a => x2 (ix2 r a)) j)) (x3 (ix1 r)) := by
    rw [pay4_eq, pay11_apply, pay5_apply]
  simp only [pay13_apply, pay14_apply, hs, hl, hw]
  rfl

end Cert.KernelIdeal.Pay

end
-- ==== Proof.HostEnds.lean ====
/-
  The two ends of the blocked program around its accumulating region.

  Before the region the four arrays are extended from 300000 to 303104 rows with zeros; grid point t then works on
  rows 4096 t .. 4096 t + 4095 of the extended arrays, so a block's entry is the array's entry at that row, or zero
  past row 300000. After the region the result is the quotient by 1200000 of the sum of two words of the 16 x 128
  accumulator array: the words at (0, 0) and (8, 0).
-/
import proofs.«155284_j65103114273337_1_alg».proof.Proof.Gen.KernelIdeal.Frame
import proofs.«155284_j65103114273337_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.Ends

open Idealize.ShloMosaic Idealize.ShloMosaic.TcCoe Idealize.SL.Sem Cert.KernelIdeal Cert.KernelIdeal.Gen
open Idealize.ShloMosaic.Pipeline (Dat Cfg Window)
open Idealize.ShloMosaic.ValueIdx Cert.SoftBin

variable (m : (ℓ : Loc nD τ sig) → Buf (Elt Ideal) ℓ)

/-! ## The four arrays the region finds: the arguments extended by 3104 rows of the zero word -/

/-- The extending value: the integer zero read as a real number. -/
abbrev zeroWord : S_.Idx → EReal := sitofp (F := Ideal) .f32 (constantI S_ 32 0#32)

/-- It is zero. -/
theorem zeroWord_first : zeroWord (Shape.Idx.first h_S_) = 0 := by
  show (((0#32 : BitVec 32).toInt : ℝ) : EReal) = 0
  simp

open Idealize.ShloMosaic.StableHlo in
/-- The logits as the region finds them: the argument extended along the rows. -/
theorem arr0 (c : Dev nD) :
    (V m c main_v0 : S303104x4x33.Idx → EReal)
      = pad S303104x4x33 ![0, 0, 0] ![3104, 0, 0] ![0, 0, 0] (m ((c : Thread nD τ).loc main_arg0)) zeroWord
          pads_S300000x4x33_S303104x4x33_031040_000_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

open Idealize.ShloMosaic.StableHlo in
/-- The boxes as the region finds them. -/
theorem arr1 (c : Dev nD) :
    (V m c main_v1 : S303104x4.Idx → EReal)
      = pad S303104x4 ![0, 0] ![3104, 0] ![0, 0] (m ((c : Thread nD τ).loc main_arg1)) zeroWord
          pads_S300000x4_S303104x4_031040_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

open Idealize.ShloMosaic.StableHlo in
/-- The points as the region finds them. -/
theorem arr2 (c : Dev nD) :
    (V m c main_v2 : S303104x2.Idx → EReal)
      = pad S303104x2 ![0, 0] ![3104, 0] ![0, 0] (m ((c : Thread nD τ).loc main_arg2)) zeroWord
          pads_S300000x2_S303104x2_031040_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

open Idealize.ShloMosaic.StableHlo in
/-- The weights as the region finds them. -/
theorem arr3 (c : Dev nD) :
    (V m c main_v3 : S303104.Idx → EReal)
      = pad S303104 ![0] ![3104] ![0] (m ((c : Thread nD τ).loc main_arg3)) zeroWord
          pads_S300000_S303104_031040 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-! ## An extended array at a row: the argument's row, or zero past row 300000 -/

theorem pad0_apply (X : S300000x4x33.Idx → EReal) (n : ℕ) (hn : n < 303104) (j : Fin 4) (k : Fin 33) :
    pad S303104x4x33 ![0, 0, 0] ![3104, 0, 0] ![0, 0, 0] X zeroWord
        pads_S300000x4x33_S303104x4x33_031040_000_000 h_S_ (ix3 ⟨n, hn⟩ j k) = padRows3 X n j k := by
  unfold padRows3
  by_cases h : n < 300000
  · rw [dif_pos h]
    refine pad_apply_of_inside _ _ _ X _ _ _ _ (ix3 ⟨n, h⟩ j k) fun a => ?_
    match a with
    | ⟨0, _⟩ => show n = 0 + n * (0 + 1); omega
    | ⟨1, _⟩ => show j.val = 0 + j.val * (0 + 1); omega
    | ⟨2, _⟩ => show k.val = 0 + k.val * (0 + 1); omega
  · rw [dif_neg h]
    refine (pad_apply_of_not_inside _ _ _ X _ _ _ _ (0 : Fin 3) ?_).trans zeroWord_first
    show ¬(0 ≤ n ∧ (n - 0) % (0 + 1) = 0 ∧ (n - 0) / (0 + 1) < 300000)
    omega

theorem pad1_apply (X : S300000x4.Idx → EReal) (n : ℕ) (hn : n < 303104) (a : Fin 4) :
    pad S303104x4 ![0, 0] ![3104, 0] ![0, 0] X zeroWord
        pads_S300000x4_S303104x4_031040_000 h_S_ (ix2 ⟨n, hn⟩ a) = padRows2 X n a := by
  unfold padRows2
  by_cases h : n < 300000
  · rw [dif_pos h]
    refine pad_apply_of_inside _ _ _ X _ _ _ _ (ix2 ⟨n, h⟩ a) fun b => ?_
    match b with
    | ⟨0, _⟩ => show n = 0 + n * (0 + 1); omega
    | ⟨1, _⟩ => show a.val = 0 + a.val * (0 + 1); omega
  · rw [dif_neg h]
    refine (pad_apply_of_not_inside _ _ _ X _ _ _ _ (0 : Fin 2) ?_).trans zeroWord_first
    show ¬(0 ≤ n ∧ (n - 0) % (0 + 1) = 0 ∧ (n - 0) / (0 + 1) < 300000)
    omega

theorem pad2_apply (X : S300000x2.Idx → EReal) (n : ℕ) (hn : n < 303104) (a : Fin 2) :
    pad S303104x2 ![0, 0] ![3104, 0] ![0, 0] X zeroWord
        pads_S300000x2_S303104x2_031040_000 h_S_ (ix2 ⟨n, hn⟩ a) = padRows2 X n a := by
  unfold padRows2
  by_cases h : n < 300000
  · rw [dif_pos h]
    refine pad_apply_of_inside _ _ _ X _ _ _ _ (ix2 ⟨n, h⟩ a) fun b => ?_
    match b with
    | ⟨0, _⟩ => show n = 0 + n * (0 + 1); omega
    | ⟨1, _⟩ => show a.val = 0 + a.val * (0 + 1); omega
  · rw [dif_neg h]
    refine (pad_apply_of_not_inside _ _ _ X _ _ _ _ (0 : Fin 2) ?_).trans zeroWord_first
    show ¬(0 ≤ n ∧ (n - 0) % (0 + 1) = 0 ∧ (n - 0) / (0 + 1) < 300000)
    omega

theorem pad3_apply (X : S300000.Idx → EReal) (n : ℕ) (hn : n < 303104) :
    pad S303104 ![0] ![3104] ![0] X zeroWord
        pads_S300000_S303104_031040 h_S_ (ix1 ⟨n, hn⟩) = padRows1 X n := by
  unfold padRows1
  by_cases h : n < 300000
  · rw [dif_pos h]
    refine pad_apply_of_inside _ _ _ X _ _ _ _ (ix1 ⟨n, h⟩) fun b => ?_
    match b with
    | ⟨0, _⟩ => show n = 0 + n * (0 + 1); omega
  · rw [dif_neg h]
    refine (pad_apply_of_not_inside _ _ _ X _ _ _ _ (0 : Fin 1) ?_).trans zeroWord_first
    show ¬(0 ≤ n ∧ (n - 0) % (0 + 1) = 0 ∧ (n - 0) / (0 + 1) < 300000)
    omega

/-! ## The blocks: grid point t's block index is t on the rows and 0 on every other axis -/

/-- The four index maps over the grid of 74 points, decided. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val)

/-- Row r of block t is a row of the extended arrays: 4096 t + r is below 303104 = 74 x 4096. -/
theorem row_lt (t : Fin cfg0.N) (r : Fin 4096) : 4096 * t.val + r.val < 303104 := by
  have h1 := t.isLt
  have h2 := r.isLt
  have h3 : cfg0.N = 74 := N_0
  omega

/-! ## After the region: one word of the accumulator array -/

/-- The word at (r, 0) of a 16 x 128 array, cut out as a 1 x 1 array and read as a rank-zero array. -/
theorem word_apply (A : S16x128.Idx → EReal) (r : Fin 16) (h : S16x128.Slices ![r.val, 0] S1x1) (i : S_.Idx) :
    shapeCast S_ (extractStridedSlice S1x1 ![r.val, 0] A h) shapeCasts_S1x1_S_ i = A (ix2 r 0) := by
  refine (shapeCast_apply _ _ i (ix2 0 0) ?_).trans (extractStridedSlice_apply _ A h (ix2 0 0) (ix2 r 0) fun a => ?_)
  · have h1 : (S1x1.rowMajor (ix2 0 0)).val = 0 := Nat.lt_one_iff.mp (S1x1.rowMajor (ix2 0 0)).isLt
    have h2 : (S_.rowMajor i).val = 0 := Nat.lt_one_iff.mp (S_.rowMajor i).isLt
    exact h1.trans h2.symm
  · match a with
    | ⟨0, _⟩ => rfl
    | ⟨1, _⟩ => rfl

/-- Grid point t's block of logits, boxes, points and weights, at their literal shapes. -/
abbrev blk0 (c : Dev nD) (t : Fin cfg0.N) : Vec Ideal S4096x4x33 .f32 := iblk m c 0 t
abbrev blk1 (c : Dev nD) (t : Fin cfg0.N) : Vec Ideal S4096x4 .f32 := iblk m c 1 t
abbrev blk2 (c : Dev nD) (t : Fin cfg0.N) : Vec Ideal S4096x2 .f32 := iblk m c 2 t
abbrev blk3 (c : Dev nD) (t : Fin cfg0.N) : Vec Ideal S4096 .f32 := iblk m c 3 t

/-- Row r of block t is row 4096 t + r of the zero-extended array. -/
theorem blk0_apply (c : Dev nD) (t : Fin cfg0.N) (r : Fin 4096) (j : Fin 4) (k : Fin 33) :
    blk0 m c t (ix3 r j k) = padRows3 (m ((c : Thread nD τ).loc main_arg0)) (4096 * t.val + r.val) j k := by
  obtain ⟨e0, e1, e2, -⟩ := idx_facts t
  have hrow : blk0 m c t (ix3 r j k)
      = (V m c main_v0 : S303104x4x33.Idx → EReal) (ix3 ⟨4096 * t.val + r.val, row_lt t r⟩ j k) := by
    show iblk m c 0 t (ix3 r j k) = _
    unfold iblk
    rw [View.read_apply]
    show V m c main_v0 _ = V m c main_v0 _
    congr 1
    funext a
    apply Fin.ext
    match a with
    | ⟨0, _⟩ => show win0_0.index t (0 : Fin 3) * 4096 + 1 * r.val = 4096 * t.val + r.val; rw [e0]; omega
    | ⟨1, _⟩ => show win0_0.index t (1 : Fin 3) * 4 + 1 * j.val = j.val; rw [e1]; omega
    | ⟨2, _⟩ => show win0_0.index t (2 : Fin 3) * 33 + 1 * k.val = k.val; rw [e2]; omega
  rw [hrow, arr0]
  exact pad0_apply _ _ _ j k

theorem blk1_apply (c : Dev nD) (t : Fin cfg0.N) (r : Fin 4096) (a : Fin 4) :
    blk1 m c t (ix2 r a) = padRows2 (m ((c : Thread nD τ).loc main_arg1)) (4096 * t.val + r.val) a := by
  obtain ⟨-, -, -, e0, e1, -⟩ := idx_facts t
  have hrow : blk1 m c t (ix2 r a)
      = (V m c main_v1 : S303104x4.Idx → EReal) (ix2 ⟨4096 * t.val + r.val, row_lt t r⟩ a) := by
    show iblk m c 1 t (ix2 r a) = _
    unfold iblk
    rw [View.read_apply]
    show V m c main_v1 _ = V m c main_v1 _
    congr 1
    funext b
    apply Fin.ext
    match b with
    | ⟨0, _⟩ => show win0_1.index t (0 : Fin 2) * 4096 + 1 * r.val = 4096 * t.val + r.val; rw [e0]; omega
    | ⟨1, _⟩ => show win0_1.index t (1 : Fin 2) * 4 + 1 * a.val = a.val; rw [e1]; omega
  rw [hrow, arr1]
  exact pad1_apply _ _ _ a

theorem blk2_apply (c : Dev nD) (t : Fin cfg0.N) (r : Fin 4096) (a : Fin 2) :
    blk2 m c t (ix2 r a) = padRows2 (m ((c : Thread nD τ).loc main_arg2)) (4096 * t.val + r.val) a := by
  obtain ⟨-, -, -, -, -, e0, e1, -⟩ := idx_facts t
  have hrow : blk2 m c t (ix2 r a)
      = (V m c main_v2 : S303104x2.Idx → EReal) (ix2 ⟨4096 * t.val + r.val, row_lt t r⟩ a) := by
    show iblk m c 2 t (ix2 r a) = _
    unfold iblk
    rw [View.read_apply]
    show V m c main_v2 _ = V m c main_v2 _
    congr 1
    funext b
    apply Fin.ext
    match b with
    | ⟨0, _⟩ => show win0_2.index t (0 : Fin 2) * 4096 + 1 * r.val = 4096 * t.val + r.val; rw [e0]; omega
    | ⟨1, _⟩ => show win0_2.index t (1 : Fin 2) * 2 + 1 * a.val = a.val; rw [e1]; omega
  rw [hrow, arr2]
  exact pad2_apply _ _ _ a

theorem blk3_apply (c : Dev nD) (t : Fin cfg0.N) (r : Fin 4096) :
    blk3 m c t (ix1 r) = padRows1 (m ((c : Thread nD τ).loc main_arg3)) (4096 * t.val + r.val) := by
  obtain ⟨-, -, -, -, -, -, -, e0⟩ := idx_facts t
  have hrow : blk3 m c t (ix1 r)
      = (V m c main_v3 : S303104.Idx → EReal) (ix1 ⟨4096 * t.val + r.val, row_lt t r⟩) := by
    show iblk m c 3 t (ix1 r) = _
    unfold iblk
    rw [View.read_apply]
    show V m c main_v3 _ = V m c main_v3 _
    congr 1
    funext b
    apply Fin.ext
    match b with
    | ⟨0, _⟩ => show win0_3.index t (0 : Fin 1) * 4096 + 1 * r.val = 4096 * t.val + r.val; rw [e0]; omega
  rw [hrow, arr3]
  exact pad3_apply _ _ _

/-- The 16 x 128 accumulator array after the last write-back, as the proof data computes it, at its literal type. -/
abbrev outArr (dats : (p : Fin 1) → (c : Dev nD) → Dat τ (Elt Ideal) Unit ℕ (UR sig nD τ) ℕ (cfgs p) c) (c : Dev nD) :
    S16x128.Idx → EReal := (dats 0 c).arrAt 4 cfg0.N

open Idealize.ShloMosaic.StableHlo in
/-- The result after the region: the accumulator array's words at (0, 0) and (8, 0), added and divided by 1200000. -/
theorem tail_value (dats : (p : Fin 1) → (c : Dev nD) → Dat τ (Elt Ideal) Unit ℕ (UR sig nD τ) ℕ (cfgs p) c) (c : Dev nD) :
    Pipeline.afterTail₀ cfgs dats 0 (V0 m) [hostOps1] c main_v10
      = fun _ => Ideal.div (outArr dats c (ix2 0 0) + outArr dats c (ix2 8 0)) (lit 0x49927C00#32) := by
  unfold Pipeline.afterTail₀
  show StableHlo.after hostOps1 _ (Proc.devRef .tc main_v10) = _
  after_results
  have hA : Pipeline.withArrays (cfgs 0).spec c (V0 m c) (fun w => (dats 0 c).arrAt w (cfgs 0).N) (Proc.devRef .tc main_v4)
      = outArr dats c := Pipeline.withArrays_arr spec0 launch0.win.arr_inj c _ _ 4
  rw [hA]
  funext i
  show Ideal.div (shapeCast S_ (extractStridedSlice S1x1 ![(0 : Fin 16).val, 0] (outArr dats c) slices_S16x128_S1x1_0_0) shapeCasts_S1x1_S_ i
      + shapeCast S_ (extractStridedSlice S1x1 ![(8 : Fin 16).val, 0] (outArr dats c) slices_S16x128_S1x1_8_0) shapeCasts_S1x1_S_ i) (lit 0x49927C00#32) = _
  rw [word_apply, word_apply]

end Cert.KernelIdeal.Ends

end
-- ==== Proof.KernelValue.lean ====
/-
  The blocked program's result at the exact reals: the quotient by 1200000 of the sum of two words, each the
  literal zero plus the block totals of one half of the 74 grid points, a block total being the sum over the
  block's 4096 rows and 4 sides of the side's loss (first spelling) on the zero-extended arrays.
-/
import proofs.«155284_j65103114273337_1_alg».proof.Proof.KernelFrame
import proofs.«155284_j65103114273337_1_alg».proof.Proof.KernelPayload
import proofs.«155284_j65103114273337_1_alg».proof.Proof.HostEnds

set_option maxRecDepth 16384

noncomputable section

namespace Cert.KernelIdeal.Total

open Idealize.ShloMosaic Idealize.ShloMosaic.TcCoe Idealize.SL.Sem Cert.KernelIdeal Cert.KernelIdeal.Gen
open Idealize.ShloMosaic.Pipeline (Dat Cfg Window)
open Idealize.ShloMosaic.ValueIdx Cert.SoftBin Cert.KernelIdeal.Pay Cert.KernelIdeal.Acc

variable (m : (ℓ : Loc nD τ sig) → Buf (Elt Ideal) ℓ)

/-- The four argument arrays of core c. -/
abbrev X0 (c : Dev nD) : S300000x4x33.Idx → EReal := m ((c : Thread nD τ).loc main_arg0)
abbrev X1 (c : Dev nD) : S300000x4.Idx → EReal := m ((c : Thread nD τ).loc main_arg1)
abbrev X2 (c : Dev nD) : S300000x2.Idx → EReal := m ((c : Thread nD τ).loc main_arg2)
abbrev X3 (c : Dev nD) : S300000.Idx → EReal := m ((c : Thread nD τ).loc main_arg3)

/-- The total of the block that starts at row 4096 n of the zero-extended arrays. -/
def btot (c : Dev nD) (n : ℕ) : EReal :=
  ∑ r : Fin 4096, ∑ j : Fin 4, rowLossK (X0 m c) (X1 m c) (X2 m c) (X3 m c) (4096 * n + r.val) j

/-- What a grid point adds to the corner is its block's total. -/
theorem pay_corner (c : Dev nD) (t : Fin cfg0.N) (acc : Vec Ideal S1x1 .f32) :
    blockPay (F := Ideal) (xb0 m c t) (xb1 m c t) (xb2 m c t) (xb3 m c t) acc (ix2 0 0) = acc (ix2 0 0) + btot m c t.val := by
  rw [blockPay_apply]
  refine congrArg (fun s => acc (ix2 0 0) + s) ?_
  unfold btot rowLossK
  refine Finset.sum_congr rfl fun r _ => Finset.sum_congr rfl fun j _ => ?_
  have e0 : (fun k => xb0 m c t (ix3 r j k)) = fun k => padRows3 (X0 m c) (4096 * t.val + r.val) j k :=
    funext fun k => Ends.blk0_apply m c t r j k
  have e1 : (fun a => xb1 m c t (ix2 r a)) = fun a => padRows2 (X1 m c) (4096 * t.val + r.val) a :=
    funext fun a => Ends.blk1_apply m c t r a
  have e2 : (fun a => xb2 m c t (ix2 r a)) = fun a => padRows2 (X2 m c) (4096 * t.val + r.val) a :=
    funext fun a => Ends.blk2_apply m c t r a
  have e3 : xb3 m c t (ix1 r) = padRows1 (X3 m c) (4096 * t.val + r.val) := Ends.blk3_apply m c t r
  rw [e0, e1, e2, e3]

/-- The corner after a point that opens a half. -/
theorem corner_first (c : Dev nD) (t : Fin cfg0.N) (h0 : t.val % 37 = 0) :
    outsAt0 m c t.val t.isLt (ix2 0 0) = lit 0x00000000#32 + btot m c t.val := by
  rw [Acc.corner_first m c t h0, pay_corner, accA_corner]
  rfl

/-- The corner after any other point. -/
theorem corner_next (c : Dev nD) (t : Fin cfg0.N) (h0 : ¬t.val % 37 = 0) :
    outsAt0 m c t.val t.isLt (ix2 0 0)
      = outsAt0 m c (t.val - 1) (Nat.lt_of_le_of_lt (Nat.sub_le _ _) t.isLt) (ix2 0 0) + btot m c t.val := by
  rw [Acc.corner_next m c t h0, pay_corner, accB_corner]

/-- The proof that a point is inside the grid does not matter. -/
theorem outs_congr (c : Dev nD) {n n' : ℕ} (e : n = n') (h : n < cfg0.N) (h' : n' < cfg0.N) :
    outsAt0 m c n h = outsAt0 m c n' h' := by
  subst e; rfl

/-- After point 37 q + i the corner holds the literal zero plus the block totals of points 37 q .. 37 q + i. -/
theorem corner_run (c : Dev nD) (q : ℕ) (hq : q < 2) : ∀ (i : ℕ) (hi : i < 37) (h : 37 * q + i < cfg0.N),
    outsAt0 m c (37 * q + i) h (ix2 0 0) = lit 0x00000000#32 + ∑ k ∈ Finset.range (i + 1), btot m c (37 * q + k)
  | 0, _, h => by
    have := corner_first m c ⟨37 * q + 0, h⟩ (by show (37 * q + 0) % 37 = 0; omega)
    rw [this, Finset.sum_range_one]
  | i + 1, hi, h => by
    have h0 : ¬(37 * q + (i + 1)) % 37 = 0 := by omega
    have := corner_next m c ⟨37 * q + (i + 1), h⟩ h0
    rw [this, outs_congr m c (show 37 * q + (i + 1) - 1 = 37 * q + i by omega) _ (by omega),
      corner_run c q hq i (by omega) (by omega), Finset.sum_range_succ _ (i + 1), add_assoc]

/-- The sum of the two words the result is made of. -/
def total (c : Dev nD) : EReal :=
  (lit 0x00000000#32 + ∑ i ∈ Finset.range 37, btot m c i) + (lit 0x00000000#32 + ∑ i ∈ Finset.range 37, btot m c (37 + i))

theorem arr_sum (c : Dev nD) : Acc.outArr m c (ix2 0 0) + Acc.outArr m c (ix2 8 0) = total m c := by
  rw [arr_00, arr_80]
  have h0 := corner_run m c 0 (by omega) 36 (by omega) (by decide)
  have h1 := corner_run m c 1 (by omega) 36 (by omega) (by decide)
  unfold total
  rw [outs_congr m c (show (36 : ℕ) = 37 * 0 + 36 by rfl) _ (by decide), h0,
    outs_congr m c (show (73 : ℕ) = 37 * 1 + 36 by rfl) _ (by decide), h1]
  simp only [Nat.mul_zero, Nat.zero_add, Nat.mul_one]

/-- The blocked program runs; its result is the two words' sum over 1200000, its arguments are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v10) = (fun _ => Ideal.div (total m c) (lit 0x49927C00#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans
        ((Ends.tail_value m (dats m) c).trans (funext fun _ => congrArg (fun s => Ideal.div s (lit 0x49927C00#32)) (arr_sum m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Total

end
-- ==== Proof.RefValue.lean ====
/-
  The reference program's result, read back: the quotient by 1200000 of the literal zero plus the sum, over the
  300000 rows and 4 sides, of the side's loss in its second spelling.
-/
import proofs.«155284_j65103114273337_1_alg».proof.Proof.RefRead
import proofs.«155284_j65103114273337_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Cert.ReferenceIdeal Cert.ReferenceIdeal.Gen
open Idealize.ShloMosaic.ValueIdx Cert.SoftBin

open Cert.ReferenceIdeal.ReadP

/-! Two indices of rank 1, 2 or 3 agree when their coordinates do; a coordinate that went through a reshape carries a
    division by one. -/
local macro "idx1" : tactic =>
  `(tactic| (funext a; match a with
    | ⟨0, _⟩ => first | rfl | exact Fin.ext (Nat.div_one _)))
local macro "idx2" : tactic =>
  `(tactic| (funext a; match a with
    | ⟨0, _⟩ => first | rfl | exact Fin.ext (Nat.div_one _)
    | ⟨1, _⟩ => first | rfl | exact Fin.ext (Nat.div_one _)))
local macro "idx3" : tactic =>
  `(tactic| (funext a; match a with
    | ⟨0, _⟩ => first | rfl | exact Fin.ext (Nat.div_one _)
    | ⟨1, _⟩ => first | rfl | exact Fin.ext (Nat.div_one _)
    | ⟨2, _⟩ => first | rfl | exact Fin.ext (Nat.div_one _)))

section
variable (x0 : (⟨S300000x4x33, .f32⟩ : BufTy).Contents (Elt Ideal)) (x1 : (⟨S300000x4, .f32⟩ : BufTy).Contents (Elt Ideal))
  (x2 : (⟨S300000x2, .f32⟩ : BufTy).Contents (Elt Ideal)) (x3 : (⟨S300000, .f32⟩ : BufTy).Contents (Elt Ideal))

/-- The signed distance of row n's point to side j of its box. -/
abbrev dqAt (n : Fin 300000) (j : Fin 4) : EReal := dqOf (fun a => x1 (ix2 n a)) (fun a => x2 (ix2 n a)) j

/-- That distance clipped to [0, 32]. -/
abbrev dAt (n : Fin 300000) (j : Fin 4) : EReal := dist (dqAt x1 x2 n j)

/-- The 33 logits of side j of row n. -/
abbrev pAt (n : Fin 300000) (j : Fin 4) : Fin 33 → EReal := fun k => x0 (ix3 n j k)

/-! ### The point's and the box's coordinates, column by column -/

theorem v1_at (n : Fin 300000) : val_main_v1 (F := Ideal) x2 (ix1 n) = x2 (ix2 n 0) := by
  rw [val_main_v1_apply, val_main_v0_apply]
  exact congrArg x2 (by idx2)

theorem v3_at (n : Fin 300000) : val_main_v3 (F := Ideal) x2 (ix1 n) = x2 (ix2 n 1) := by
  rw [val_main_v3_apply, val_main_v2_apply]
  exact congrArg x2 (by idx2)

theorem v5_at (n : Fin 300000) : val_main_v5 (F := Ideal) x1 (ix1 n) = x1 (ix2 n 0) := by
  rw [val_main_v5_apply, val_main_v4_apply]
  exact congrArg x1 (by idx2)

theorem v7_at (n : Fin 300000) : val_main_v7 (F := Ideal) x1 (ix1 n) = x1 (ix2 n 1) := by
  rw [val_main_v7_apply, val_main_v6_apply]
  exact congrArg x1 (by idx2)

theorem v9_at (n : Fin 300000) : val_main_v9 (F := Ideal) x1 (ix1 n) = x1 (ix2 n 2) := by
  rw [val_main_v9_apply, val_main_v8_apply]
  exact congrArg x1 (by idx2)

theorem v11_at (n : Fin 300000) : val_main_v11 (F := Ideal) x1 (ix1 n) = x1 (ix2 n 3) := by
  rw [val_main_v11_apply, val_main_v10_apply]
  exact congrArg x1 (by idx2)

/-! ### The four signed distances as columns -/

theorem v16_at (n : Fin 300000) : val_main_v16 (F := Ideal) x1 x2 (ix2 n 0) = x2 (ix2 n 0) - x1 (ix2 n 0) := by
  rw [val_main_v16_apply, show idx_main_v16 (ix2 n (0 : Fin 1)) = ix1 n from by idx1, val_main_v12_apply, v1_at, v5_at]
  rfl

theorem v17_at (n : Fin 300000) : val_main_v17 (F := Ideal) x1 x2 (ix2 n 0) = x1 (ix2 n 2) - x2 (ix2 n 0) := by
  rw [val_main_v17_apply, show idx_main_v17 (ix2 n (0 : Fin 1)) = ix1 n from by idx1, val_main_v13_apply, v9_at, v1_at]
  rfl

theorem v18_at (n : Fin 300000) : val_main_v18 (F := Ideal) x1 x2 (ix2 n 0) = x2 (ix2 n 1) - x1 (ix2 n 1) := by
  rw [val_main_v18_apply, show idx_main_v18 (ix2 n (0 : Fin 1)) = ix1 n from by idx1, val_main_v14_apply, v3_at, v7_at]
  rfl

theorem v19_at (n : Fin 300000) : val_main_v19 (F := Ideal) x1 x2 (ix2 n 0) = x1 (ix2 n 3) - x2 (ix2 n 1) := by
  rw [val_main_v19_apply, show idx_main_v19 (ix2 n (0 : Fin 1)) = ix1 n from by idx1, val_main_v15_apply, v11_at, v3_at]
  rfl

/-! ### The signed distance: the concatenation of the four columns, read column by column -/

/-- The four columns in the order the concatenation lists them. -/
abbrev cols : List ((s : Shape) × (s.Idx → EReal)) :=
  [⟨S300000x1, val_main_v16 (F := Ideal) x1 x2⟩, ⟨S300000x1, val_main_v17 (F := Ideal) x1 x2⟩,
   ⟨S300000x1, val_main_v18 (F := Ideal) x1 x2⟩, ⟨S300000x1, val_main_v19 (F := Ideal) x1 x2⟩]

theorem v20_at (n : Fin 300000) (j : Fin 4) : val_main_v20 (F := Ideal) x1 x2 (ix2 n j) = dqAt x1 x2 n j := by
  have hoff : ∀ (c : Fin 4) (b : Fin 2), b.cast (rfl : S300000x1.rank = S300000x4.rank) ≠ (1 : Fin 2) →
      ((ix2 n (0 : Fin 1) : S300000x1.Idx) b).val = ((ix2 n c : S300000x4.Idx) (b.cast rfl)).val :=
    fun c b hb => match b, hb with
      | ⟨0, _⟩, _ => rfl
      | ⟨1, _⟩, hb => absurd rfl hb
  show concatenate S300000x4 1 (cols x1 x2) concatenates_S300000x1_S300000x1_S300000x1_S300000x1_S300000x4_d1 (ix2 n j) = _
  match j with
  | ⟨0, _⟩ =>
    refine (concatenate_apply_piece (t := S300000x4) (1 : Fin 2) (cols x1 x2) concatenates_S300000x1_S300000x1_S300000x1_S300000x1_S300000x4_d1
      (ix2 n (0 : Fin 4)) 0 (show 0 < 4 by decide) S300000x1
      (val_main_v16 (F := Ideal) x1 x2) rfl rfl 0 rfl (ix2 n 0) (hoff _) rfl).trans ?_
    exact v16_at x1 x2 n
  | ⟨1, _⟩ =>
    refine (concatenate_apply_piece (t := S300000x4) (1 : Fin 2) (cols x1 x2) concatenates_S300000x1_S300000x1_S300000x1_S300000x1_S300000x4_d1
      (ix2 n (1 : Fin 4)) 1 (show 1 < 4 by decide) S300000x1
      (val_main_v17 (F := Ideal) x1 x2) rfl rfl 1 rfl (ix2 n 0) (hoff _) rfl).trans ?_
    exact v17_at x1 x2 n
  | ⟨2, _⟩ =>
    refine (concatenate_apply_piece (t := S300000x4) (1 : Fin 2) (cols x1 x2) concatenates_S300000x1_S300000x1_S300000x1_S300000x1_S300000x4_d1
      (ix2 n (2 : Fin 4)) 2 (show 2 < 4 by decide) S300000x1
      (val_main_v18 (F := Ideal) x1 x2) rfl rfl 2 rfl (ix2 n 0) (hoff _) rfl).trans ?_
    exact v18_at x1 x2 n
  | ⟨3, _⟩ =>
    refine (concatenate_apply_piece (t := S300000x4) (1 : Fin 2) (cols x1 x2) concatenates_S300000x1_S300000x1_S300000x1_S300000x1_S300000x4_d1
      (ix2 n (3 : Fin 4)) 3 (show 3 < 4 by decide) S300000x1
      (val_main_v19 (F := Ideal) x1 x2) rfl rfl 3 rfl (ix2 n 0) (hoff _) rfl).trans ?_
    exact v19_at x1 x2 n

/-! ### The clipped distance, its integer part, its fraction and its upper bin -/

theorem v21_at (n : Fin 300000) (j : Fin 4) : val_main_v21 (F := Ideal) x1 x2 (ix2 n j) = dAt x1 x2 n j := by
  rw [val_main_v21_apply, val_main_call0_v4_apply, val_main_call0_v2_apply, val_main_call0_v1_apply, v20_at]
  rfl

theorem v23_at (n : Fin 300000) (j : Fin 4) : val_main_v23 (F := Ideal) x1 x2 (ix2 n j) = dfl (dAt x1 x2 n j) := by
  rw [val_main_v23_apply, val_main_v22_apply, v21_at]
  rfl

theorem v25_at (n : Fin 300000) (j : Fin 4) : val_main_v25 (F := Ideal) x1 x2 (ix2 n j) = fr (dAt x1 x2 n j) := by
  rw [val_main_v25_apply, val_main_v24_apply, v21_at, v23_at]
  rfl

theorem v29_at (n : Fin 300000) (j : Fin 4) : val_main_v29 (F := Ideal) x1 x2 (ix2 n j) = up (dAt x1 x2 n j) := by
  rw [val_main_v29_apply, val_main_v27_apply, val_main_v26_apply, val_main_v28_apply, v23_at]
  rfl

/-! ### The side's weight -/

theorem v53_at (n : Fin 300000) (j : Fin 4) :
    val_main_v53 (F := Ideal) x1 x2 x3 (ix2 n j) = wgt (dAt x1 x2 n j) (x3 (ix1 n)) := by
  rw [val_main_v53_apply, val_main_v51_apply, val_main_v49_apply, val_main_v48_apply, val_main_v47_apply,
    val_main_call3_v0_apply, val_main_call3_v1_apply, val_main_v52_apply, val_main_v50_apply, v21_at,
    show idx_main_v50 (idx_main_v52 (ix2 n j)) = ix1 n from by idx1]
  rfl

/-! ### The soft label -/

theorem v46_at (n : Fin 300000) (j : Fin 4) (k : Fin 33) :
    val_main_v46 (F := Ideal) x1 x2 (ix3 n j k) = soft (dAt x1 x2 n j) k := by
  have e33 : val_main_v33 (F := Ideal) (ix3 n j k) = BitVec.ofNat 32 k.val := by
    rw [val_main_v33_apply, val_main_v32_apply, val_main_v30_apply]
  have e39 : val_main_v39 (F := Ideal) (ix3 n j k) = BitVec.ofNat 32 k.val := by
    rw [val_main_v39_apply, val_main_v38_apply, val_main_v30_apply]
  have e34 : val_main_v34 (F := Ideal) x1 x2 (ix3 n j k) = up (dAt x1 x2 n j) := by
    rw [val_main_v34_apply, val_main_v31_apply,
      show idx_main_v31 (idx_main_v34 (ix3 n j k)) = ix2 n j from by idx2, v29_at]
  have e40 : val_main_v40 (F := Ideal) x1 x2 (ix3 n j k) = dfl (dAt x1 x2 n j) := by
    rw [val_main_v40_apply, val_main_v37_apply,
      show idx_main_v37 (idx_main_v40 (ix3 n j k)) = ix2 n j from by idx2, v23_at]
  have ec2 : val_main_call2_v0 (F := Ideal) x1 x2 (ix3 n j k) = fr (dAt x1 x2 n j) := by
    rw [val_main_call2_v0_apply, val_main_v36_apply,
      show idx_main_v36 (idx_main_call2_v0 (ix3 n j k)) = ix2 n j from by idx2, v25_at]
  have ec1 : val_main_call1_v1 (F := Ideal) x1 x2 (ix3 n j k) = lit 0x3F800000#32 - fr (dAt x1 x2 n j) := by
    rw [val_main_call1_v1_apply, val_main_v44_apply, val_main_v43_apply, val_main_v42_apply,
      show idx_main_v42 (idx_main_call1_v1 (ix3 n j k)) = ix2 n j from by idx2, v25_at]
    rfl
  have ez : val_main_call1_v2 (F := Ideal) (ix3 n j k) = lit 0x00000000#32 := by
    rw [val_main_call1_v2_apply]
    rfl
  rw [val_main_v46_apply, val_main_v35_apply, val_main_v45_apply, val_main_v41_apply, e33, e39, e34, e40, ec2, ec1, ez]
  rfl

/-! ### The log-softmax of the logits -/

/-- The witness that dropping the last axis of the logits' shape leaves the rows-by-sides shape. -/
theorem redLast : S300000x4x33.Reduces [2] S300000x4 := by decide

theorem lift_at (n : Fin 300000) (j : Fin 4) (k : Fin 33) : redLast.lift (ix2 n j) k = ix3 n j k := by
  funext c
  match c with
  | ⟨0, _⟩ => exact Fin.ext rfl
  | ⟨1, _⟩ => exact Fin.ext rfl
  | ⟨2, _⟩ => exact Fin.ext rfl

theorem rmax_at (n : Fin 300000) (j : Fin 4) :
    val_main_call4_v2 (F := Ideal) x0 (ix2 n j) = rmax (pAt x0 n j) := by
  have e0 : val_main_call4_v0 (F := Ideal) x0 (ix2 n j)
      = (Finset.univ : Finset (Fin 33)).fold max (lit 0xFF800000#32) (pAt x0 n j) := by
    unfold val_main_call4_v0
    refine (Host.reduce_eq_fold_single (α := EReal) (s := S300000x4x33) (t := S300000x4) (a := (2 : Fin 3)) (u := S_)
      (FloatOps.maximumf (F := Ideal) (φ := .f32)) x0 (val_main_call4_cst (F := Ideal))
      reducesTo_S300000x4x33_S300000x4_d2 redLast h_S_ (ix2 n j)).trans ?_
    have hf : x0 ∘ redLast.lift (ix2 n j) = pAt x0 n j := funext fun k => congrArg x0 (lift_at n j k)
    rw [hf]
    rfl
  rw [val_main_call4_v2_apply, val_main_call4_v1_apply, e0]
  rfl

theorem sh_at (n : Fin 300000) (j : Fin 4) (k : Fin 33) :
    val_main_call4_v5 (F := Ideal) x0 (ix3 n j k) = sh (pAt x0 n j) k := by
  rw [val_main_call4_v5_apply, val_main_call4_v4_apply, val_main_call4_v3_apply,
    show idx_main_call4_v3 (idx_main_call4_v4 (ix3 n j k)) = ix2 n j from by idx2, rmax_at]
  rfl

theorem sumexp_at (n : Fin 300000) (j : Fin 4) :
    val_main_call4_v7 (F := Ideal) x0 (ix2 n j)
      = lit 0x00000000#32 + ∑ k : Fin 33, Ideal.exp (sh (pAt x0 n j) k) := by
  rw [val_main_call4_v7_apply]
  refine congrArg (fun t => lit 0x00000000#32 + t) (Finset.sum_congr rfl fun k _ => ?_)
  rw [val_main_call4_v6_apply, show idx_main_call4_v7 (ix2 n j) k = ix3 n j k from by idx3, sh_at]
  rfl

theorem v54_at (n : Fin 300000) (j : Fin 4) (k : Fin 33) :
    val_main_v54 (F := Ideal) x0 (ix3 n j k) = lsmR (pAt x0 n j) k := by
  rw [val_main_v54_apply, val_main_call4_v10_apply, val_main_call4_v9_apply, val_main_call4_v8_apply,
    show idx_main_call4_v8 (idx_main_call4_v10 (ix3 n j k)) = ix2 n j from by idx2, sumexp_at, sh_at]
  rfl

/-! ### The cross entropy, the clipped mass, and the side's loss -/

theorem v65_at (n : Fin 300000) (j : Fin 4) (k : Fin 33) :
    val_main_v65 (F := Ideal) x0 x1 x2 (ix3 n j k)
      = xlR (soft (dAt x1 x2 n j) k) - soft (dAt x1 x2 n j) k * lsmR (pAt x0 n j) k := by
  rw [val_main_v65_apply, val_main_v63_apply, val_main_v59_apply, val_main_v57_apply, val_main_v58_apply,
    val_main_v61_apply, val_main_v60_apply, val_main_v56_apply, val_main_v62_apply, val_main_v64_apply,
    v46_at, v54_at]
  rfl

theorem v66_at (n : Fin 300000) (j : Fin 4) :
    val_main_v66 (F := Ideal) x0 x1 x2 (ix2 n j) = ceR (pAt x0 n j) (dAt x1 x2 n j) := by
  rw [val_main_v66_apply]
  refine congrArg (fun t => lit 0x00000000#32 + t) (Finset.sum_congr rfl fun k _ => ?_)
  rw [show idx_main_v66 (ix2 n j) k = ix3 n j k from by idx3, v65_at]

theorem v68_at (n : Fin 300000) (j : Fin 4) :
    val_main_v68 (F := Ideal) x0 x1 x2 (ix2 n j)
      = lit 0x00000000#32 + ∑ k : Fin 33, Ideal.exp (lsmR (pAt x0 n j) k) * soft (dAt x1 x2 n j) k := by
  rw [val_main_v68_apply]
  refine congrArg (fun t => lit 0x00000000#32 + t) (Finset.sum_congr rfl fun k _ => ?_)
  rw [val_main_v67_apply, val_main_v55_apply, show idx_main_v68 (ix2 n j) k = ix3 n j k from by idx3, v54_at, v46_at]
  rfl

theorem v69_at (n : Fin 300000) (j : Fin 4) :
    val_main_v69 (F := Ideal) x0 x1 x2 (ix2 n j) = ptR (pAt x0 n j) (dAt x1 x2 n j) := by
  rw [val_main_v69_apply, val_main_call6_v4_apply, val_main_call6_v2_apply, val_main_call6_v1_apply, v68_at]
  rfl

theorem v77_at (n : Fin 300000) (j : Fin 4) :
    val_main_v77 (F := Ideal) x0 x1 x2 x3 (ix2 n j) = rowLossR x0 x1 x2 x3 n j := by
  rw [val_main_v77_apply, val_main_v76_apply, val_main_v75_apply, val_main_v74_apply, val_main_v73_apply,
    val_main_v71_apply, val_main_v70_apply, val_main_v72_apply, v69_at, v66_at, v53_at]
  rfl

end

/-- The mean loss as the reference computes it, at the exact reals, from the four argument arrays. -/
theorem ref_value (x0 : (⟨S300000x4x33, .f32⟩ : BufTy).Contents (Elt Ideal)) (x1 : (⟨S300000x4, .f32⟩ : BufTy).Contents (Elt Ideal))
    (x2 : (⟨S300000x2, .f32⟩ : BufTy).Contents (Elt Ideal)) (x3 : (⟨S300000, .f32⟩ : BufTy).Contents (Elt Ideal)) :
    Cert.ReferenceIdeal.ReadP.val_main_v79 (F := Ideal) x0 x1 x2 x3
      = fun _ => Ideal.div (lit 0x00000000#32 + ∑ n : Fin 300000, ∑ j : Fin 4, rowLossR x0 x1 x2 x3 n j) (lit 0x49927C00#32) := by
  funext i
  rw [val_main_v79_apply, val_main_v78_apply, sum_idx2]
  have hs : ∑ n : Fin 300000, ∑ j : Fin 4, val_main_v77 (F := Ideal) x0 x1 x2 x3 (ix2 n j)
      = ∑ n : Fin 300000, ∑ j : Fin 4, rowLossR x0 x1 x2 x3 n j :=
    Finset.sum_congr rfl fun n _ => Finset.sum_congr rfl fun j _ => v77_at x0 x1 x2 x3 n j
  rw [hs]
  rfl

end Cert.ReferenceIdeal.RefValue

end
-- ==== Proof.RefStages.lean ====
/-
  The plain program's run, read back stretch by stretch.

  Its 130 host operations are cut into stretches (the fourth in three parts). After each stretch the few values later stretches read are
  named as stages of the arguments (the stage functions of Proof/RefRead.lean): the clipped distances; the soft
  labels; the side weights; the log-softmax and the softmax; the cross entropy and the label mass; the mean loss.
  A stretch never writes an argument or a value an earlier stretch produced, so those pass through unchanged.
-/
import proofs.«155284_j65103114273337_1_alg».proof.Proof.RefRead
import Idealize.ShloMosaic.Lib.StableHlo.Run

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-! ## The six stretches -/

abbrev opsA : List (HloOp τ sig (Elt F)) := (ops (F := F)).take 29
abbrev restA : List (HloOp τ sig (Elt F)) := (ops (F := F)).drop 29
abbrev opsB : List (HloOp τ sig (Elt F)) := (restA (F := F)).take 33
abbrev restB : List (HloOp τ sig (Elt F)) := (restA (F := F)).drop 33
abbrev opsC : List (HloOp τ sig (Elt F)) := (restB (F := F)).take 12
abbrev restC : List (HloOp τ sig (Elt F)) := (restB (F := F)).drop 12
abbrev opsD1 : List (HloOp τ sig (Elt F)) := (restC (F := F)).take 2
abbrev restD1 : List (HloOp τ sig (Elt F)) := (restC (F := F)).drop 2
abbrev opsD2 : List (HloOp τ sig (Elt F)) := (restD1 (F := F)).take 6
abbrev restD2 : List (HloOp τ sig (Elt F)) := (restD1 (F := F)).drop 6
abbrev opsD3 : List (HloOp τ sig (Elt F)) := (restD2 (F := F)).take 8
abbrev restD : List (HloOp τ sig (Elt F)) := (restD2 (F := F)).drop 8
abbrev opsE : List (HloOp τ sig (Elt F)) := (restD (F := F)).take 17
abbrev opsF : List (HloOp τ sig (Elt F)) := (restD (F := F)).drop 17

/-- The whole line is the six stretches in order. -/
theorem after_split (V : Valuation τ sig (Elt F)) :
    after (ops (F := F)) V = after opsF (after opsE (after opsD3 (after opsD2 (after opsD1 (after opsC (after opsB (after opsA V))))))) := by
  have hA : (ops (F := F)) = opsA ++ restA := (List.take_append_drop 29 _).symm
  have hB : (restA (F := F)) = opsB ++ restB := (List.take_append_drop 33 _).symm
  have hC : (restB (F := F)) = opsC ++ restC := (List.take_append_drop 12 _).symm
  have hD1 : (restC (F := F)) = opsD1 ++ restD1 := (List.take_append_drop 2 _).symm
  have hD2 : (restD1 (F := F)) = opsD2 ++ restD2 := (List.take_append_drop 6 _).symm
  have hD3 : (restD2 (F := F)) = opsD3 ++ restD := (List.take_append_drop 8 _).symm
  have hE : (restD (F := F)) = opsE ++ opsF := (List.take_append_drop 17 _).symm
  rw [hA, after_append, hB, after_append, hC, after_append, hD1, after_append, hD2, after_append, hD3, after_append,
    hE, after_append]

/-! ## Stretch 1: the clipped distances -/

set_option maxHeartbeats 4000000 in
theorem stA (V : Valuation τ sig (Elt F)) :
    after (opsA (F := F)) V (Proc.devRef .tc main_v21)
      = val_main_v21 (F := F) (V (Proc.devRef .tc main_arg1)) (V (Proc.devRef .tc main_arg2)) := by
  simp only [opsA, ops, List.take_succ_cons, List.take_zero]
  after_results_simp
  rfl

set_option maxHeartbeats 4000000 in
theorem keepA (V : Valuation τ sig (Elt F)) :
    after (opsA (F := F)) V (Proc.devRef .tc main_arg0) = V (Proc.devRef .tc main_arg0)
    ∧ after (opsA (F := F)) V (Proc.devRef .tc main_arg3) = V (Proc.devRef .tc main_arg3) := by
  simp only [opsA, ops, List.take_succ_cons, List.take_zero]
  constructor <;> after_results_simp

/-! ## Stretch 2: the soft labels -/

set_option maxHeartbeats 4000000 in
theorem stB (V : Valuation τ sig (Elt F)) (x1 : (⟨S300000x4, .f32⟩ : BufTy).Contents (Elt F)) (x2 : (⟨S300000x2, .f32⟩ : BufTy).Contents (Elt F))
    (h21 : V (Proc.devRef .tc main_v21) = val_main_v21 (F := F) x1 x2) :
    after (opsB (F := F)) V (Proc.devRef .tc main_v46) = val_main_v46 (F := F) x1 x2 := by
  simp only [opsB, restA, ops, List.take_succ_cons, List.take_zero, List.drop_succ_cons, List.drop_zero]
  after_results_simp
  rw [h21]
  rfl

set_option maxHeartbeats 4000000 in
theorem keepB (V : Valuation τ sig (Elt F)) :
    after (opsB (F := F)) V (Proc.devRef .tc main_v21) = V (Proc.devRef .tc main_v21)
    ∧ after (opsB (F := F)) V (Proc.devRef .tc main_arg0) = V (Proc.devRef .tc main_arg0)
    ∧ after (opsB (F := F)) V (Proc.devRef .tc main_arg3) = V (Proc.devRef .tc main_arg3) := by
  simp only [opsB, restA, ops, List.take_succ_cons, List.take_zero, List.drop_succ_cons, List.drop_zero]
  refine ⟨?_, ?_, ?_⟩ <;> after_results_simp

/-! ## Stretch 3: the side weights -/

set_option maxHeartbeats 4000000 in
theorem stC (V : Valuation τ sig (Elt F)) (x1 : (⟨S300000x4, .f32⟩ : BufTy).Contents (Elt F)) (x2 : (⟨S300000x2, .f32⟩ : BufTy).Contents (Elt F))
    (x3 : (⟨S300000, .f32⟩ : BufTy).Contents (Elt F))
    (h21 : V (Proc.devRef .tc main_v21) = val_main_v21 (F := F) x1 x2) (h3 : V (Proc.devRef .tc main_arg3) = x3) :
    after (opsC (F := F)) V (Proc.devRef .tc main_v53) = val_main_v53 (F := F) x1 x2 x3 := by
  simp only [opsC, restB, restA, ops, List.take_succ_cons, List.take_zero, List.drop_succ_cons, List.drop_zero]
  after_results_simp
  rw [h21, h3]
  rfl

set_option maxHeartbeats 4000000 in
theorem keepC (V : Valuation τ sig (Elt F)) :
    after (opsC (F := F)) V (Proc.devRef .tc main_v46) = V (Proc.devRef .tc main_v46)
    ∧ after (opsC (F := F)) V (Proc.devRef .tc main_arg0) = V (Proc.devRef .tc main_arg0) := by
  simp only [opsC, restB, restA, ops, List.take_succ_cons, List.take_zero, List.drop_succ_cons, List.drop_zero]
  refine ⟨?_, ?_⟩ <;> after_results_simp

/-! ## Stretch 4: the log-softmax and the softmax, in three parts: the row maximum; the shifted logits; the rest -/

set_option maxHeartbeats 4000000 in
theorem stD1 (V : Valuation τ sig (Elt F)) (x0 : (⟨S300000x4x33, .f32⟩ : BufTy).Contents (Elt F))
    (h0 : V (Proc.devRef .tc main_arg0) = x0) :
    after (opsD1 (F := F)) V (Proc.devRef .tc main_call4_v0) = val_main_call4_v0 (F := F) x0 := by
  simp only [opsD1, restC, restB, restA, ops, List.take_succ_cons, List.take_zero, List.drop_succ_cons, List.drop_zero]
  after_results_simp
  rw [h0]
  simp only [TRef.ofBuf, TRef.toBuf, cast_eq]
  rfl

set_option maxHeartbeats 4000000 in
theorem keepD1 (V : Valuation τ sig (Elt F)) :
    after (opsD1 (F := F)) V (Proc.devRef .tc main_v46) = V (Proc.devRef .tc main_v46)
    ∧ after (opsD1 (F := F)) V (Proc.devRef .tc main_v53) = V (Proc.devRef .tc main_v53)
    ∧ after (opsD1 (F := F)) V (Proc.devRef .tc main_arg0) = V (Proc.devRef .tc main_arg0) := by
  simp only [opsD1, restC, restB, restA, ops, List.take_succ_cons, List.take_zero, List.drop_succ_cons, List.drop_zero]
  refine ⟨?_, ?_, ?_⟩ <;> after_results_simp

/-- The logits less the row maximum y (itself taken never below the pattern of minus infinity). -/
def shifted (x0 : (⟨S300000x4x33, .f32⟩ : BufTy).Contents (Elt F)) (y : (⟨S300000x4, .f32⟩ : BufTy).Contents (Elt F)) :
    (⟨S300000x4x33, .f32⟩ : BufTy).Contents (Elt F) :=
  subf x0 (broadcastInDim S300000x4x33 ![0, 1, 2] bcast_S300000x4x1_S300000x4x33_0_1_2
    (broadcastInDim S300000x4x1 ![0, 1] bcast_S300000x4_S300000x4x1_0_1
      (maximumf (broadcastInDim S300000x4 ![] bcast_S_S300000x4 (constant S_ .f32 0xFF800000#32)) y)))

/-- At the row maximum's stage it is the shifted logits' stage. -/
theorem shifted_eq (x0 : (⟨S300000x4x33, .f32⟩ : BufTy).Contents (Elt F)) :
    shifted x0 (val_main_call4_v0 (F := F) x0) = val_main_call4_v5 (F := F) x0 := rfl

set_option maxHeartbeats 4000000 in
theorem stD2 (V : Valuation τ sig (Elt F)) (x0 : (⟨S300000x4x33, .f32⟩ : BufTy).Contents (Elt F))
    (y : (⟨S300000x4, .f32⟩ : BufTy).Contents (Elt F))
    (h0 : V (Proc.devRef .tc main_arg0) = x0) (hm : V (Proc.devRef .tc main_call4_v0) = y) :
    after (opsD2 (F := F)) V (Proc.devRef .tc main_call4_v5) = shifted x0 y := by
  simp only [opsD2, restD1, restC, restB, restA, ops, List.take_succ_cons, List.take_zero, List.drop_succ_cons, List.drop_zero]
  after_results_simp
  rw [h0, hm]
  simp only [TRef.ofBuf, TRef.toBuf, cast_eq]
  rfl

set_option maxHeartbeats 4000000 in
theorem keepD2 (V : Valuation τ sig (Elt F)) :
    after (opsD2 (F := F)) V (Proc.devRef .tc main_v46) = V (Proc.devRef .tc main_v46)
    ∧ after (opsD2 (F := F)) V (Proc.devRef .tc main_v53) = V (Proc.devRef .tc main_v53) := by
  simp only [opsD2, restD1, restC, restB, restA, ops, List.take_succ_cons, List.take_zero, List.drop_succ_cons, List.drop_zero]
  refine ⟨?_, ?_⟩ <;> after_results_simp

set_option maxHeartbeats 4000000 in
theorem stD3 (V : Valuation τ sig (Elt F)) (x0 : (⟨S300000x4x33, .f32⟩ : BufTy).Contents (Elt F))
    (h5 : V (Proc.devRef .tc main_call4_v5) = val_main_call4_v5 (F := F) x0) :
    after (opsD3 (F := F)) V (Proc.devRef .tc main_v54) = val_main_v54 (F := F) x0
    ∧ after (opsD3 (F := F)) V (Proc.devRef .tc main_v55) = val_main_v55 (F := F) x0 := by
  simp only [opsD3, restD2, restD1, restC, restB, restA, ops, List.take_succ_cons, List.take_zero, List.drop_succ_cons, List.drop_zero]
  constructor
  · after_results_simp
    rw [h5]
    simp only [TRef.ofBuf, TRef.toBuf, cast_eq]
    rfl
  · after_results_simp
    rw [h5]
    simp only [TRef.ofBuf, TRef.toBuf, cast_eq]
    rfl

set_option maxHeartbeats 4000000 in
theorem keepD3 (V : Valuation τ sig (Elt F)) :
    after (opsD3 (F := F)) V (Proc.devRef .tc main_v46) = V (Proc.devRef .tc main_v46)
    ∧ after (opsD3 (F := F)) V (Proc.devRef .tc main_v53) = V (Proc.devRef .tc main_v53) := by
  simp only [opsD3, restD2, restD1, restC, restB, restA, ops, List.take_succ_cons, List.take_zero, List.drop_succ_cons, List.drop_zero]
  refine ⟨?_, ?_⟩ <;> after_results_simp

/-! ## Stretch 5: the cross entropy and the label mass -/

set_option maxHeartbeats 4000000 in
theorem stE (V : Valuation τ sig (Elt F)) (x0 : (⟨S300000x4x33, .f32⟩ : BufTy).Contents (Elt F))
    (x1 : (⟨S300000x4, .f32⟩ : BufTy).Contents (Elt F)) (x2 : (⟨S300000x2, .f32⟩ : BufTy).Contents (Elt F))
    (h46 : V (Proc.devRef .tc main_v46) = val_main_v46 (F := F) x1 x2)
    (h54 : V (Proc.devRef .tc main_v54) = val_main_v54 (F := F) x0)
    (h55 : V (Proc.devRef .tc main_v55) = val_main_v55 (F := F) x0) :
    after (opsE (F := F)) V (Proc.devRef .tc main_v66) = val_main_v66 (F := F) x0 x1 x2
    ∧ after (opsE (F := F)) V (Proc.devRef .tc main_v68) = val_main_v68 (F := F) x0 x1 x2 := by
  simp only [opsE, restD, restD2, restD1, restC, restB, restA, ops, List.take_succ_cons, List.take_zero, List.drop_succ_cons, List.drop_zero]
  constructor
  · after_results_simp
    rw [h46, h54]
    rfl
  · after_results_simp
    rw [h46, h55]
    rfl

set_option maxHeartbeats 4000000 in
theorem keepE (V : Valuation τ sig (Elt F)) :
    after (opsE (F := F)) V (Proc.devRef .tc main_v53) = V (Proc.devRef .tc main_v53) := by
  simp only [opsE, restD, restD2, restD1, restC, restB, restA, ops, List.take_succ_cons, List.take_zero, List.drop_succ_cons, List.drop_zero]
  after_results_simp

/-! ## Stretch 6: the mean loss -/

set_option maxHeartbeats 4000000 in
theorem stF (V : Valuation τ sig (Elt F)) (x0 : (⟨S300000x4x33, .f32⟩ : BufTy).Contents (Elt F))
    (x1 : (⟨S300000x4, .f32⟩ : BufTy).Contents (Elt F)) (x2 : (⟨S300000x2, .f32⟩ : BufTy).Contents (Elt F))
    (x3 : (⟨S300000, .f32⟩ : BufTy).Contents (Elt F))
    (h66 : V (Proc.devRef .tc main_v66) = val_main_v66 (F := F) x0 x1 x2)
    (h68 : V (Proc.devRef .tc main_v68) = val_main_v68 (F := F) x0 x1 x2)
    (h53 : V (Proc.devRef .tc main_v53) = val_main_v53 (F := F) x1 x2 x3) :
    after (opsF (F := F)) V (Proc.devRef .tc main_v79) = val_main_v79 (F := F) x0 x1 x2 x3 := by
  simp only [opsF, restD, restD2, restD1, restC, restB, restA, ops, List.drop_succ_cons, List.drop_zero]
  after_results_simp
  rw [h66, h68, h53]
  rfl

/-! ## The whole line -/

/-- After all 130 operations the result buffer holds the last stage of the four arguments. -/
theorem after_ops_result (V : Valuation τ sig (Elt F)) :
    after (ops (F := F)) V (Proc.devRef .tc main_v79)
      = val_main_v79 (F := F) (V (Proc.devRef .tc main_arg0)) (V (Proc.devRef .tc main_arg1)) (V (Proc.devRef .tc main_arg2))
          (V (Proc.devRef .tc main_arg3)) := by
  rw [after_split]
  have a21 := stA (F := F) V
  obtain ⟨a0, a3⟩ := keepA (F := F) V
  have b46 := stB (after opsA V) _ _ a21
  obtain ⟨b21, b0, b3⟩ := keepB (F := F) (after opsA V)
  rw [a21] at b21; rw [a0] at b0; rw [a3] at b3
  have c53 := stC (after opsB (after opsA V)) _ _ _ b21 b3
  obtain ⟨c46, c0⟩ := keepC (F := F) (after opsB (after opsA V))
  rw [b46] at c46; rw [b0] at c0
  have dm := stD1 (after opsC (after opsB (after opsA V))) _ c0
  obtain ⟨d46a, d53a, d0a⟩ := keepD1 (F := F) (after opsC (after opsB (after opsA V)))
  rw [c46] at d46a; rw [c53] at d53a; rw [c0] at d0a
  have d5 := stD2 (after opsD1 (after opsC (after opsB (after opsA V)))) _ _ d0a dm
  rw [shifted_eq] at d5
  obtain ⟨d46b, d53b⟩ := keepD2 (F := F) (after opsD1 (after opsC (after opsB (after opsA V))))
  rw [d46a] at d46b; rw [d53a] at d53b
  obtain ⟨d54, d55⟩ := stD3 (after opsD2 (after opsD1 (after opsC (after opsB (after opsA V))))) _ d5
  obtain ⟨d46, d53⟩ := keepD3 (F := F) (after opsD2 (after opsD1 (after opsC (after opsB (after opsA V)))))
  rw [d46b] at d46; rw [d53b] at d53
  obtain ⟨e66, e68⟩ := stE (after opsD3 (after opsD2 (after opsD1 (after opsC (after opsB (after opsA V)))))) _ _ _ d46 d54 d55
  have e53 := keepE (F := F) (after opsD3 (after opsD2 (after opsD1 (after opsC (after opsB (after opsA V))))))
  rw [d53] at e53
  exact stF _ _ _ _ _ e66 e68 e53

set_option maxHeartbeats 4000000 in
/-- No operation writes an argument. -/
theorem after_ops_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3) := by
  refine ⟨?_, ?_, ?_, ?_⟩ <;> after_results_simp

/-- The plain program runs; its result is the last stage of its arguments, which it leaves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79)
        = val_main_v79 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v79).trans (after_ops_result (F := F) (launchContents m c)),
      (h c main_arg0).trans (after_ops_args (F := F) (launchContents m c)).1,
      (h c main_arg1).trans (after_ops_args (F := F) (launchContents m c)).2.1,
      (h c main_arg2).trans (after_ops_args (F := F) (launchContents m c)).2.2.1,
      (h c main_arg3).trans (after_ops_args (F := F) (launchContents m c)).2.2.2⟩)
    (run_after m ρ)

end Cert.ReferenceIdeal.Stages

end
-- ==== Proof.Algebra.lean ====
/-
  The two spellings of a side's loss are one function, and a side of zero weight has zero loss.
-/
import proofs.«155284_j65103114273337_1_alg».proof.Proof.Spec

noncomputable section

namespace Cert.SoftBin

open Idealize.ShloMosaic

/-- The all-zero pattern denotes the real zero. -/
theorem lit_zero : lit 0x00000000#32 = 0 := by
  simp [Ideal.ofBits, Ideal.ieee]

/-- The pattern of one denotes the real one. -/
theorem lit_one : lit 0x3F800000#32 = 1 := by
  simp [Ideal.ofBits, Ideal.ieee, -EReal.coe_mul]; norm_num

/-- The pattern of two denotes the real two. -/
theorem lit_two : lit 0x40000000#32 = ((2 : ℝ) : EReal) := by
  simp [Ideal.ofBits, Ideal.ieee, -EReal.coe_mul]; norm_num

/-- The pattern of thirty-two denotes the real thirty-two. -/
theorem lit_32 : lit 0x42000000#32 = ((32 : ℝ) : EReal) := by
  simp [Ideal.ofBits, Ideal.ieee, -EReal.coe_mul]; norm_num

/-- The lower clip of p_t is a finite pattern: it denotes a real number. -/
theorem lit_eps : ∃ e : ℝ, lit 0x358637BD#32 = ((e : ℝ) : EReal) := by
  simp [Ideal.ofBits, Ideal.ieee, -EReal.coe_mul]

/-- A clipped distance is a real number between 0 and 32. -/
theorem dist_real (dq : EReal) : ∃ x : ℝ, 0 ≤ x ∧ x ≤ 32 ∧ dist dq = ((x : ℝ) : EReal) := by
  have h0 : (0 : EReal) ≤ dist dq := by
    unfold dist; rw [lit_32, lit_zero]
    exact le_min (EReal.coe_nonneg.mpr (by norm_num)) (le_max_left _ _)
  have h32 : dist dq ≤ ((32 : ℝ) : EReal) := by
    unfold dist; rw [lit_32]; exact min_le_left _ _
  have hb : dist dq ≠ ⊥ := fun h => by rw [h] at h0; exact absurd h0 (by simp)
  have ht : dist dq ≠ ⊤ := fun h => by rw [h] at h32; exact absurd h32 (by simp)
  refine ⟨(dist dq).toReal, EReal.toReal_nonneg h0, ?_, (EReal.coe_toReal ht hb).symm⟩
  have := EReal.toReal_le_toReal h32 hb (EReal.coe_ne_top 32)
  simpa using this

/-- The integer part of a real distance in [0, 32], read back from its 32-bit word, is its floor. -/
theorem dfl_toInt (x : ℝ) (h0 : 0 ≤ x) (h32 : x ≤ 32) : (dfl ((x : ℝ) : EReal)).toInt = ⌊x⌋ := by
  have hf0 : 0 ≤ ⌊x⌋ := Int.floor_nonneg.mpr h0
  have hf32 : ⌊x⌋ ≤ 32 := by
    have h : ⌊x⌋ ≤ ⌊(32 : ℝ)⌋ := Int.floor_mono h32
    have e : ⌊(32 : ℝ)⌋ = 32 := by exact_mod_cast Int.floor_intCast (R := ℝ) 32
    rwa [e] at h
  have hc : (0 : ℝ) ≤ ((⌊x⌋ : ℤ) : ℝ) := by exact_mod_cast hf0
  unfold dfl Ideal.fptosi
  rw [Ideal.liftRound_coe, Ideal.toIntClamped_coe, if_pos hc, Int.floor_intCast, BitVec.toInt_ofInt]
  have e1 : min (((2 ^ (32 - 1) : Nat) : Int) - 1) ⌊x⌋ = ⌊x⌋ := min_eq_right (by norm_num; omega)
  have e2 : max (-((2 ^ (32 - 1) : Nat) : Int)) ⌊x⌋ = ⌊x⌋ := max_eq_right (by norm_num; omega)
  rw [e1, e2]
  exact Int.bmod_eq_of_le (by norm_num; omega) (by norm_num; omega)

/-- The two guards of x log x select alike on a label that is not negative. -/
theorem xl_eq (s : EReal) (hs : 0 ≤ s) : xlK s = xlR s := by
  unfold xlK xlR
  rw [lit_zero, lit_one]
  have c3 : Ideal.cmp .une s s = 0 := by simp [Ideal.cmp]
  rcases hs.lt_or_eq with h | h
  · have c1 : Ideal.cmp .ogt s 0 = 1 := by simp [Ideal.cmp, h]
    have c2 : Ideal.cmp .une s 0 = 1 := by simp [Ideal.cmp, h.ne']
    rw [c1, c2, c3]
    simp [Scalar.select, IntOp.ori]
  · subst h
    simp [Ideal.cmp, Scalar.select, IntOp.ori]

/-- The fraction of a real distance in [0, 32] is its fractional part. -/
theorem fr_coe (x : ℝ) (h0 : 0 ≤ x) (h32 : x ≤ 32) : fr ((x : ℝ) : EReal) = ((Int.fract x : ℝ) : EReal) := by
  unfold fr
  rw [dfl_toInt x h0 h32, ← EReal.coe_sub, Int.self_sub_floor]

/-- A soft label is never negative: it is the fraction, one minus the fraction, or zero. -/
theorem soft_nonneg (dq : EReal) (k : Fin 33) : 0 ≤ soft (dist dq) k := by
  obtain ⟨x, h0, h32, hx⟩ := dist_real dq
  rw [hx]
  unfold soft
  rw [fr_coe x h0 h32, lit_one, lit_zero]
  have hf0 : (0 : EReal) ≤ ((Int.fract x : ℝ) : EReal) := EReal.coe_nonneg.mpr (Int.fract_nonneg x)
  have hf1 : (0 : EReal) ≤ 1 - ((Int.fract x : ℝ) : EReal) := by
    rw [← EReal.coe_one, ← EReal.coe_sub]
    exact EReal.coe_nonneg.mpr (sub_nonneg.mpr (Int.fract_lt_one x).le)
  unfold Scalar.select
  split_ifs
  · exact hf0
  · exact hf1
  · exact le_refl _

/-- The log-softmax is the same in both spellings: a sum started from the literal zero is the sum. -/
theorem lsm_eq (p : Fin 33 → EReal) (k : Fin 33) : lsmK p k = lsmR p k := by
  unfold lsmK lsmR
  rw [lit_zero, zero_add]

/-- The cross entropy is the same in both spellings at a clipped distance. -/
theorem ce_eq (p : Fin 33 → EReal) (dq : EReal) : ceK p (dist dq) = ceR p (dist dq) := by
  unfold ceK ceR
  rw [lit_zero, zero_add]
  refine Finset.sum_congr rfl (fun k _ => ?_)
  rw [xl_eq _ (soft_nonneg dq k), lsm_eq]

/-- The clipped label-weighted softmax mass is the same in both spellings. -/
theorem pt_eq (p : Fin 33 → EReal) (d : EReal) : ptK p d = ptR p d := by
  unfold ptK ptR
  rw [lit_zero, zero_add]
  simp only [lsm_eq]

/-- The clipped mass is a real number: it lies between two real numbers. -/
theorem pt_real (p : Fin 33 → EReal) (d : EReal) : ∃ t : ℝ, ptR p d = ((t : ℝ) : EReal) := by
  obtain ⟨e, he⟩ := lit_eps
  have hb : ptR p d ≠ ⊥ := by
    unfold ptR
    rw [lit_one, he, ← EReal.coe_one]
    exact ne_of_gt (lt_min (EReal.bot_lt_coe 1) (lt_max_of_lt_left (EReal.bot_lt_coe e)))
  have ht : ptR p d ≠ ⊤ := by
    unfold ptR
    rw [lit_one, ← EReal.coe_one]
    exact ne_of_lt (lt_of_le_of_lt (min_le_left _ _) (EReal.coe_lt_top 1))
  exact ⟨(ptR p d).toReal, (EReal.coe_toReal ht hb).symm⟩

/-- On a real number the power with exponent 2 is the product with itself. -/
theorem pow_two_real (r : ℝ) : Ideal.pow ((r : ℝ) : EReal) ((2 : ℝ) : EReal) = ((r : ℝ) : EReal) * ((r : ℝ) : EReal) := by
  rw [Ideal.pow_coe_coe, ← EReal.coe_mul]
  congr 1
  show r ^ (2 : ℝ) = r * r
  rw [Real.rpow_two, sq]

/-- The two spellings agree on every row and side: a soft label is never negative, so the two guards of x log x
    select alike, and 1 - p_t is a real number, whose power with exponent 2 is its square. -/
theorem lossK_eq_lossR (p : Fin 33 → EReal) (dq w : EReal) : lossK p dq w = lossR p dq w := by
  unfold lossK lossR
  rw [pt_eq, ce_eq]
  obtain ⟨t, ht⟩ := pt_real p (dist dq)
  rw [ht, lit_one, lit_two, ← EReal.coe_one, ← EReal.coe_sub, pow_two_real]

/-- A side whose weight is zero has zero loss, whatever its logits and distance. -/
theorem lossK_zero_weight (p : Fin 33 → EReal) (dq : EReal) : lossK p dq 0 = 0 := by
  unfold lossK wgt
  rw [mul_zero, mul_zero]

end Cert.SoftBin

end
-- ==== Proof.BlockSums.lean ====
/-
  The blocked total is the total over the rows.

  74 blocks of 4096 rows cover 303104 row numbers; the first 37 blocks are summed into one word and the last 37
  into another, each starting from zero, and the two words are added. When the rows from 300000 on contribute
  zero this is the sum over the first 300000 rows. Only commutativity and associativity of the addition are used.
-/
import Mathlib.Algebra.BigOperators.Fin
import Mathlib.Algebra.BigOperators.Intervals
import Mathlib.Data.EReal.Basic

open scoped BigOperators

namespace Cert.SoftBin

variable {M : Type*} [AddCommMonoid M]

/-- m consecutive blocks of b rows, summed block by block, are the first b * m rows summed in order. -/
theorem sum_blocks_eq_sum_range (b : ℕ) (g : ℕ → M) (m : ℕ) :
    ∑ i ∈ Finset.range m, ∑ r : Fin b, g (b * i + r.val) = ∑ n ∈ Finset.range (b * m), g n := by
  induction m with
  | zero => simp
  | succ m ih =>
    rw [Finset.sum_range_succ, ih, Nat.mul_succ, Finset.sum_range_add]
    congr 1
    exact Fin.sum_univ_eq_sum_range (fun x => g (b * m + x)) b

/-- Two halves of 37 blocks of 4096 rows, each summed from zero, against the first 300000 rows summed from zero. -/
theorem blocks_eq_rows (g : ℕ → M) (hpad : ∀ n, 300000 ≤ n → g n = 0) :
    (0 + ∑ i ∈ Finset.range 37, ∑ r : Fin 4096, g (4096 * i + r.val))
      + (0 + ∑ i ∈ Finset.range 37, ∑ r : Fin 4096, g (4096 * (37 + i) + r.val))
      = 0 + ∑ n : Fin 300000, g n.val := by
  -- the first half is the rows below 4096 * 37
  have h1 : ∑ i ∈ Finset.range 37, ∑ r : Fin 4096, g (4096 * i + r.val)
      = ∑ n ∈ Finset.range (4096 * 37), g n := sum_blocks_eq_sum_range 4096 g 37
  -- the second half is the next 4096 * 37 rows
  have h2 : ∑ i ∈ Finset.range 37, ∑ r : Fin 4096, g (4096 * (37 + i) + r.val)
      = ∑ n ∈ Finset.range (4096 * 37), g (4096 * 37 + n) := by
    rw [← sum_blocks_eq_sum_range 4096 (fun n => g (4096 * 37 + n)) 37]
    refine Finset.sum_congr rfl (fun i _ => Finset.sum_congr rfl (fun r _ => ?_))
    show g (4096 * (37 + i) + r.val) = g (4096 * 37 + (4096 * i + r.val))
    rw [Nat.mul_add, Nat.add_assoc]
  -- together they are the first 303104 = 300000 + 3104 rows, of which the last 3104 contribute nothing
  have h3 : ∑ n ∈ Finset.range (4096 * 37), g n + ∑ n ∈ Finset.range (4096 * 37), g (4096 * 37 + n)
      = ∑ n ∈ Finset.range (300000 + 3104), g n := by
    rw [← Finset.sum_range_add]
  have h4 : ∑ n ∈ Finset.range 3104, g (300000 + n) = 0 :=
    Finset.sum_eq_zero (fun n _ => hpad (300000 + n) (Nat.le_add_right _ _))
  rw [h1, h2, zero_add, zero_add, zero_add, h3, Finset.sum_range_add, h4, add_zero]
  exact (Fin.sum_univ_eq_sum_range g 300000).symm

end Cert.SoftBin
-- ==== Proof.Bridge.lean ====
/-
  The blocked total of the first spelling is the row total of the second.

  Rows from 300000 on have zero weight, hence zero loss; on the first 300000 rows the zero-extended arrays are the
  arrays, and the two spellings of the loss agree. So the two halves' block totals, each summed from the literal
  zero, add up to the literal zero plus the sum over the 300000 rows.
-/
import proofs.«155284_j65103114273337_1_alg».proof.Proof.Spec
import proofs.«155284_j65103114273337_1_alg».proof.Proof.Algebra
import proofs.«155284_j65103114273337_1_alg».proof.Proof.BlockSums

noncomputable section

namespace Cert.SoftBin

open Idealize.ShloMosaic Idealize.ShloMosaic.ValueIdx

/-- A row past the end of the arrays has zero weight, hence zero loss on every side. -/
theorem rowLossK_pad (X0 : (⟨3, ![300000, 4, 33]⟩ : Shape).Idx → EReal) (X1 : (⟨2, ![300000, 4]⟩ : Shape).Idx → EReal)
    (X2 : (⟨2, ![300000, 2]⟩ : Shape).Idx → EReal) (X3 : (⟨1, ![300000]⟩ : Shape).Idx → EReal)
    (n : ℕ) (hn : 300000 ≤ n) (j : Fin 4) : rowLossK X0 X1 X2 X3 n j = 0 := by
  have h : padRows1 X3 n = 0 := by
    unfold padRows1
    exact dif_neg (Nat.not_lt.mpr hn)
  unfold rowLossK
  rw [h]
  exact lossK_zero_weight _ _

/-- On a row of the arrays the zero-extended arrays are the arrays, and the two spellings of the loss agree. -/
theorem rowLossK_eq_rowLossR (X0 : (⟨3, ![300000, 4, 33]⟩ : Shape).Idx → EReal)
    (X1 : (⟨2, ![300000, 4]⟩ : Shape).Idx → EReal) (X2 : (⟨2, ![300000, 2]⟩ : Shape).Idx → EReal)
    (X3 : (⟨1, ![300000]⟩ : Shape).Idx → EReal) (n : Fin 300000) (j : Fin 4) :
    rowLossK X0 X1 X2 X3 n.val j = rowLossR X0 X1 X2 X3 n j := by
  have h3 : ∀ k, padRows3 X0 n.val j k = X0 (ix3 n j k) := fun k => by
    unfold padRows3
    rw [dif_pos n.isLt]
  have h21 : ∀ a, padRows2 X1 n.val a = X1 (ix2 n a) := fun a => by
    unfold padRows2
    rw [dif_pos n.isLt]
  have h22 : ∀ a, padRows2 X2 n.val a = X2 (ix2 n a) := fun a => by
    unfold padRows2
    rw [dif_pos n.isLt]
  have h1 : padRows1 X3 n.val = X3 (ix1 n) := by
    unfold padRows1
    rw [dif_pos n.isLt]
  unfold rowLossK rowLossR
  simp only [h3, h21, h22, h1]
  exact lossK_eq_lossR _ _ _

theorem blocked_total_eq (X0 : (⟨3, ![300000, 4, 33]⟩ : Shape).Idx → EReal) (X1 : (⟨2, ![300000, 4]⟩ : Shape).Idx → EReal)
    (X2 : (⟨2, ![300000, 2]⟩ : Shape).Idx → EReal) (X3 : (⟨1, ![300000]⟩ : Shape).Idx → EReal) :
    (lit 0x00000000#32 + ∑ i ∈ Finset.range 37, ∑ r : Fin 4096, ∑ j : Fin 4, rowLossK X0 X1 X2 X3 (4096 * i + r.val) j)
      + (lit 0x00000000#32 + ∑ i ∈ Finset.range 37, ∑ r : Fin 4096, ∑ j : Fin 4, rowLossK X0 X1 X2 X3 (4096 * (37 + i) + r.val) j)
      = lit 0x00000000#32 + ∑ n : Fin 300000, ∑ j : Fin 4, rowLossR X0 X1 X2 X3 n j := by
  rw [lit_zero]
  -- the block totals are the total over the first 300000 rows, the later rows contributing nothing
  refine (blocks_eq_rows (fun n => ∑ j : Fin 4, rowLossK X0 X1 X2 X3 n j)
    (fun n hn => Finset.sum_eq_zero (fun j _ => rowLossK_pad X0 X1 X2 X3 n hn j))).trans ?_
  -- and on those rows the two spellings agree
  refine congrArg (fun t => (0 : EReal) + t) ?_
  exact Finset.sum_congr rfl (fun n _ => Finset.sum_congr rfl (fun j _ => rowLossK_eq_rowLossR X0 X1 X2 X3 n j))

end Cert.SoftBin

end
-- ==== Proof.lean ====
/-
  The certificate of a soft distance-bin focal loss: a blocked, accumulating program against the plain mean.

  Both programs compute, for each of 300000 rows and 4 box sides, the same loss (Proof/Spec.lean; the two spellings
  agree by Proof/Algebra.lean) and return the sum over 1200000. The blocked program extends the arrays with zero
  rows to 74 blocks of 4096 rows, sums each half of the blocks into one word of an accumulator (Proof/KernelFrame.lean,
  Proof/KernelPayload.lean, Proof/KernelValue.lean) and adds the two words (Proof/HostEnds.lean); rows past 300000
  have zero weight and contribute nothing, and a sum of extended reals may be regrouped freely (Proof/BlockSums.lean,
  Proof/Bridge.lean). The plain program's run is read back stretch by stretch in Proof/RefStages.lean and its result at an index in
  Proof/RefValue.lean.
-/
import proofs.«155284_j65103114273337_1_alg».proof.Defs
import proofs.«155284_j65103114273337_1_alg».proof.Proof.Gen.Kernel
import proofs.«155284_j65103114273337_1_alg».proof.Proof.Gen.Kernel.Skeleton
import proofs.«155284_j65103114273337_1_alg».proof.Proof.Gen.Kernel.Launch
import proofs.«155284_j65103114273337_1_alg».proof.Proof.Gen.Kernel.Points
import proofs.«155284_j65103114273337_1_alg».proof.Proof.Gen.Kernel.Frame
import proofs.«155284_j65103114273337_1_alg».proof.Proof.Gen.KernelIdeal
import proofs.«155284_j65103114273337_1_alg».proof.Proof.Gen.KernelIdeal.Skeleton
import proofs.«155284_j65103114273337_1_alg».proof.Proof.Gen.KernelIdeal.Launch
import proofs.«155284_j65103114273337_1_alg».proof.Proof.Gen.KernelIdeal.Points
import proofs.«155284_j65103114273337_1_alg».proof.Proof.Gen.KernelIdeal.Frame
import proofs.«155284_j65103114273337_1_alg».proof.Proof.Gen.ReferenceIdeal
import proofs.«155284_j65103114273337_1_alg».proof.Proof.Gen.Pre_finite_inputs
import proofs.«155284_j65103114273337_1_alg».proof.Proof.KernelValue
import proofs.«155284_j65103114273337_1_alg».proof.Proof.RefValue
import proofs.«155284_j65103114273337_1_alg».proof.Proof.RefStages
import proofs.«155284_j65103114273337_1_alg».proof.Proof.Bridge
import Idealize.ShloMosaic.Adequacy
import Idealize.ShloMosaic.Init

noncomputable section

namespace Cert.Proof

open Idealize.ShloMosaic Idealize.SL.Sem Cert.SoftBin

/-- The word-level program runs and keeps its arguments. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- And the plain program: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Stages.run (F := Ideal) m ρ)

/-- The mean loss of core c's arrays, the value both programs end with. -/
def meanLoss (m : (ℓ : Loc Cert.KernelIdeal.nD Cert.KernelIdeal.τ Cert.KernelIdeal.sig) → Buf (Elt Ideal) ℓ) (c : Dev Cert.KernelIdeal.nD) :
    Cert.KernelIdeal.S_.Idx → EReal :=
  fun _ => Ideal.div (lit 0x00000000#32 + ∑ n : Fin 300000, ∑ j : Fin 4,
    rowLossR (Cert.KernelIdeal.Total.X0 m c) (Cert.KernelIdeal.Total.X1 m c) (Cert.KernelIdeal.Total.X2 m c) (Cert.KernelIdeal.Total.X3 m c) n j)
    (lit 0x49927C00#32)

/-- From agreeing arguments the two idealized programs end with the same mean loss. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => meanLoss m c, ?_, ?_⟩
  · refine (θ_run Cert.KernelIdeal.defs _ _).mono (fun _ h c => ⟨(h c).1.trans ?_, (h c).2⟩) (Cert.KernelIdeal.Total.run m ρ)
    funext _
    show Ideal.div (Cert.KernelIdeal.Total.total m c) (lit 0x49927C00#32) = Ideal.div _ (lit 0x49927C00#32)
    refine congrArg (fun s => Ideal.div s (lit 0x49927C00#32)) ?_
    unfold Cert.KernelIdeal.Total.total Cert.KernelIdeal.Total.btot
    exact blocked_total_eq _ _ _ _
  · refine (θ_run Cert.ReferenceIdeal.defs _ _).mono (fun _ h c => ⟨(h c).1.trans ?_, (h c).2⟩)
      (Cert.ReferenceIdeal.Stages.run (F := Ideal) m' ρ')
    rw [Cert.ReferenceIdeal.RefValue.ref_value,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
